-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_v54) = v3 c
          ∧ r.2.mem ((c.tc : Thread Cert.ReferenceIdeal.nD Cert.ReferenceIdeal.τ).loc Cert.ReferenceIdeal.main_v62) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S262144 : Shape := ⟨1, ![262144]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn_part2 {F : FTy → Type} [FloatOps F] (main_arg7 : FVec F S262144 .f32) (main_arg8 : FVec F S262144 .f32) (main_arg9 : FVec F S262144 .f32) (main_v33 : IVec S_ 1) : IVec S_ 1 :=
  let main_v34 : FVec F S262144 .f32 := Host.absf main_arg7
  let main_cst_12 : FVec F S_ .f32 := constant S_ .f32 0x7F800000#32
  let main_v35 : FVec F S262144 .f32 := broadcastInDim S262144 ![] bcast_S_S262144 main_cst_12
  let main_v36 : IVec S262144 1 := cmpf .olt main_v34 main_v35
  let main_c_13 : IVec S_ 1 := constantI S_ 1 1#1
  let main_v37 : IVec S_ 1 := (fun x v => Host.reduce IntOp.andi x v reducesTo_S262144_S_d0 h_S_) main_v36 main_c_13
  let main_v38 : IVec S_ 1 := andi main_v33 main_v37
  let main_v39 : FVec F S262144 .f32 := Host.absf main_arg8
  let main_cst_14 : FVec F S_ .f32 := constant S_ .f32 0x7F800000#32
  let main_v40 : FVec F S262144 .f32 := broadcastInDim S262144 ![] bcast_S_S262144 main_cst_14
  let main_v41 : IVec S262144 1 := cmpf .olt main_v39 main_v40
  let main_c_15 : IVec S_ 1 := constantI S_ 1 1#1
  let main_v42 : IVec S_ 1 := (fun x v => Host.reduce IntOp.andi x v reducesTo_S262144_S_d0 h_S_) main_v41 main_c_15
  let main_v43 : IVec S_ 1 := andi main_v38 main_v42
  let main_v44 : FVec F S262144 .f32 := Host.absf main_arg9
  let main_cst_16 : FVec F S_ .f32 := constant S_ .f32 0x7F800000#32
  let main_v45 : FVec F S262144 .f32 := broadcastInDim S262144 ![] bcast_S_S262144 main_cst_16
  let main_v46 : IVec S262144 1 := cmpf .olt main_v44 main_v45
  let main_c_17 : IVec S_ 1 := constantI S_ 1 1#1
  let main_v47 : IVec S_ 1 := (fun x v => Host.reduce IntOp.andi x v reducesTo_S262144_S_d0 h_S_) main_v46 main_c_17
  let main_v48 : IVec S_ 1 := andi main_v43 main_v47
  main_v48

def fn_part1 {F : FTy → Type} [FloatOps F] (main_arg4 : FVec F S262144x64 .f32) (main_arg5 : FVec F S262144 .f32) (main_arg6 : FVec F S262144 .f32) (main_arg7 : FVec F S262144 .f32) (main_arg8 : FVec F S262144 .f32) (main_arg9 : FVec F S262144 .f32) (main_v13 : IVec S_ 1) (main_v16 : IVec S262144x64 1) : IVec S_ 1 :=
  let main_c_5 : IVec S_ 1 := constantI S_ 1 1#1
  let main_v17 : IVec S_ 1 := (fun x v => Host.reduce IntOp.andi x v reducesTo_S262144x64_S_d0_1 h_S_) main_v16 main_c_5
  let main_v18 : IVec S_ 1 := andi main_v13 main_v17
  let main_v19 : FVec F S262144x64 .f32 := Host.absf main_arg4
  let main_cst_6 : FVec F S_ .f32 := constant S_ .f32 0x7F800000#32
  let main_v20 : FVec F S262144x64 .f32 := broadcastInDim S262144x64 ![] bcast_S_S262144x64 main_cst_6
  let main_v21 : IVec S262144x64 1 := cmpf .olt main_v19 main_v20
  let main_c_7 : IVec S_ 1 := constantI S_ 1 1#1
  let main_v22 : IVec S_ 1 := (fun x v => Host.reduce IntOp.andi x v reducesTo_S262144x64_S_d0_1 h_S_) main_v21 main_c_7
  let main_v23 : IVec S_ 1 := andi main_v18 main_v22
  let main_v24 : FVec F S262144 .f32 := Host.absf main_arg5
  let main_cst_8 : FVec F S_ .f32 := constant S_ .f32 0x7F800000#32
  let main_v25 : FVec F S262144 .f32 := broadcastInDim S262144 ![] bcast_S_S262144 main_cst_8
  let main_v26 : IVec S262144 1 := cmpf .olt main_v24 main_v25
  let main_c_9 : IVec S_ 1 := constantI S_ 1 1#1
  let main_v27 : IVec S_ 1 := (fun x v => Host.reduce IntOp.andi x v reducesTo_S262144_S_d0 h_S_) main_v26 main_c_9
  let main_v28 : IVec S_ 1 := andi main_v23 main_v27
  let main_v29 : FVec F S262144 .f32 := Host.absf main_arg6
  let main_cst_10 : FVec F S_ .f32 := constant S_ .f32 0x7F800000#32
  let main_v30 : FVec F S262144 .f32 := broadcastInDim S262144 ![] bcast_S_S262144 main_cst_10
  let main_v31 : IVec S262144 1 := cmpf .olt main_v29 main_v30
  let main_c_11 : IVec S_ 1 := constantI S_ 1 1#1
  let main_v32 : IVec S_ 1 := (fun x v => Host.reduce IntOp.andi x v reducesTo_S262144_S_d0 h_S_) main_v31 main_c_11
  let main_v33 : IVec S_ 1 := andi main_v28 main_v32
  fn_part2 (F := F) main_arg7 main_arg8 main_arg9 main_v33

def fn {F : FTy → Type} [FloatOps F] (main_arg0 : FVec F S262144x64 .f32) (main_arg1 : FVec F S262144x64 .f32) (main_arg2 : FVec F S262144x64 .f32) (main_arg3 : FVec F S262144x64 .f32) (main_arg4 : FVec F S262144x64 .f32) (main_arg5 : FVec F S262144 .f32) (main_arg6 : FVec F S262144 .f32) (main_arg7 : FVec F S262144 .f32) (main_arg8 : FVec F S262144 .f32) (main_arg9 : FVec F S262144 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S262144x64 .f32 := Host.absf main_arg1
  let main_cst_0 : FVec F S_ .f32 := constant S_ .f32 0x7F800000#32
  let main_v5 : FVec F S262144x64 .f32 := broadcastInDim S262144x64 ![] bcast_S_S262144x64 main_cst_0
  let main_v6 : IVec S262144x64 1 := cmpf .olt main_v4 main_v5
  let main_c_1 : IVec S_ 1 := constantI S_ 1 1#1
  let main_v7 : IVec S_ 1 := (fun x v => Host.reduce IntOp.andi x v reducesTo_S262144x64_S_d0_1 h_S_) main_v6 main_c_1
  let main_v8 : IVec S_ 1 := andi main_v3 main_v7
  let main_v9 : FVec F S262144x64 .f32 := Host.absf main_arg2
  let main_cst_2 : FVec F S_ .f32 := constant S_ .f32 0x7F800000#32
  let main_v10 : FVec F S262144x64 .f32 := broadcastInDim S262144x64 ![] bcast_S_S262144x64 main_cst_2
  let main_v11 : IVec S262144x64 1 := cmpf .olt main_v9 main_v10
  let main_c_3 : IVec S_ 1 := constantI S_ 1 1#1
  let main_v12 : IVec S_ 1 := (fun x v => Host.reduce IntOp.andi x v reducesTo_S262144x64_S_d0_1 h_S_) main_v11 main_c_3
  let main_v13 : IVec S_ 1 := andi main_v8 main_v12
  let main_v14 : FVec F S262144x64 .f32 := Host.absf main_arg3
  let main_cst_4 : FVec F S_ .f32 := constant S_ .f32 0x7F800000#32
  let main_v15 : FVec F S262144x64 .f32 := broadcastInDim S262144x64 ![] bcast_S_S262144x64 main_cst_4
  let main_v16 : IVec S262144x64 1 := cmpf .olt main_v14 main_v15
  fn_part1 (F := F) main_arg4 main_arg5 main_arg6 main_arg7 main_arg8 main_arg9 main_v13 main_v16
-- ==== Kernel.lean ====
abbrev S262144x64 : Shape := ⟨2, ![262144, 64]⟩
abbrev S262144 : Shape := ⟨1, ![262144]⟩
abbrev S1x128 : Shape := ⟨2, ![1, 128]⟩
abbrev S4096x64 : Shape := ⟨2, ![4096, 64]⟩
abbrev S4096 : Shape := ⟨1, ![4096]⟩
abbrev S32x128 : Shape := ⟨2, ![32, 128]⟩
abbrev S128 : Shape := ⟨1, ![128]⟩
abbrev S1 : Shape := ⟨1, ![1]⟩
abbrev S1x1 : Shape := ⟨2, ![1, 1]⟩
abbrev S_ : Shape := ⟨0, ![]⟩

abbrev nBuf : Space → Nat
  | .hbm => 21
  | .vmem => 21
  | .smem => 0
  | _ => 0

abbrev bufTy : (tb : Table) → Fin (tcTables nBuf tb) → BufTy
  | .hbm, ⟨0, _⟩ => ⟨S262144x64, .f32⟩
  | .hbm, ⟨1, _⟩ => ⟨S262144x64, .f32⟩
  | .hbm, ⟨2, _⟩ => ⟨S262144x64, .f32⟩
  | .hbm, ⟨3, _⟩ => ⟨S262144x64, .f32⟩
  | .hbm, ⟨4, _⟩ => ⟨S262144x64, .f32⟩
  | .hbm, ⟨5, _⟩ => ⟨S262144, .f32⟩
  | .hbm, ⟨6, _⟩ => ⟨S262144, .f32⟩
  | .hbm, ⟨7, _⟩ => ⟨S262144, .f32⟩
  | .hbm, ⟨8, _⟩ => ⟨S262144, .f32⟩
  | .hbm, ⟨9, _⟩ => ⟨S262144, .f32⟩
  | .hbm, ⟨10, _⟩ => ⟨S1x128, .f32⟩
  | .hbm, ⟨11, _⟩ => ⟨S1x1, .f32⟩
  | .hbm, ⟨12, _⟩ => ⟨S_, .f32⟩
  | .hbm, ⟨13, _⟩ => ⟨S1x1, .f32⟩
  | .hbm, ⟨14, _⟩ => ⟨S_, .f32⟩
  | .hbm, ⟨15, _⟩ => ⟨S1x1, .f32⟩
  | .hbm, ⟨16, _⟩ => ⟨S_, .f32⟩
  | .hbm, ⟨17, _⟩ => ⟨S1x1, .f32⟩
  | .hbm, ⟨18, _⟩ => ⟨S_, .f32⟩
  | .hbm, ⟨19, _⟩ => ⟨S1x1, .f32⟩
  | .hbm, ⟨20, _⟩ => ⟨S_, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S4096x64, .f32⟩
  | .local _ .vmem, ⟨5, _⟩ => ⟨S4096x64, .f32⟩
  | .local _ .vmem, ⟨6, _⟩ => ⟨S4096x64, .f32⟩
  | .local _ .vmem, ⟨7, _⟩ => ⟨S4096x64, .f32⟩
  | .local _ .vmem, ⟨8, _⟩ => ⟨S4096x64, .f32⟩
  | .local _ .vmem, ⟨9, _⟩ => ⟨S4096x64, .f32⟩
  | .local _ .vmem, ⟨10, _⟩ => ⟨S4096, .f32⟩
  | .local _ .vmem, ⟨11, _⟩ => ⟨S4096, .f32⟩
  | .local _ .vmem, ⟨12, _⟩ => ⟨S4096, .f32⟩
  | .local _ .vmem, ⟨13, _⟩ => ⟨S4096, .f32⟩
  | .local _ .vmem, ⟨14, _⟩ => ⟨S4096, .f32⟩
  | .local _ .vmem, ⟨15, _⟩ => ⟨S4096, .f32⟩
  | .local _ .vmem, ⟨16, _⟩ => ⟨S4096, .f32⟩
  | .local _ .vmem, ⟨17, _⟩ => ⟨S4096, .f32⟩
  | .local _ .vmem, ⟨18, _⟩ => ⟨S4096, .f32⟩
  | .local _ .vmem, ⟨19, _⟩ => ⟨S4096, .f32⟩
  | .local _ .vmem, ⟨20, _⟩ => ⟨S1x128, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 1 → Nat :=
  let arg0 : BitVec 32 := BitVec.ofNat 32 (i 0).val
  let c0_i32 : BitVec 32 := 0#32
  ![arg0.toNat]

def cc0_transform_8 (i : grid0.Coords) : Fin 1 → Nat :=
  let arg0 : BitVec 32 := BitVec.ofNat 32 (i 0).val
  let c0_i32 : BitVec 32 := 0#32
  ![arg0.toNat]

def cc0_transform_9 (i : grid0.Coords) : Fin 1 → Nat :=
  let arg0 : BitVec 32 := BitVec.ofNat 32 (i 0).val
  let c0_i32 : BitVec 32 := 0#32
  ![arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

class Facts₀ : Prop where
  inb_S1x128_S1x128_0_0 : ∀ a, (![0, 0] : Fin 2 → Nat) a + S1x128.size a ≤ S1x128.size a
  h_S1x128 : 0 < S1x128.numel
  inb_S4096x64_S4096x64_0_0 : ∀ a, (![0, 0] : Fin 2 → Nat) a + S4096x64.size a ≤ S4096x64.size a
  h_S4096x64 : 0 < S4096x64.numel
  reduces_S4096x64_S4096 : S4096x64.Reduces [1] S4096
  inb_S4096_S4096_0 : ∀ a, (![0] : Fin 1 → Nat) a + S4096.size a ≤ S4096.size a
  h_S4096 : 0 < S4096.numel
  natLt_1_32 : 1 < 32
  shapeCasts_S4096_S32x128 : S4096.ShapeCasts S32x128
  reduces_S32x128_S128 : S32x128.Reduces [0] S128
  shapeCasts_S128_S1x128 : S128.ShapeCasts S1x128
  reduces_S1x128_S1 : S1x128.Reduces [1] S1
  shapeCasts_S1_S1x1 : S1.ShapeCasts S1x1
  iota_S1x128_d1_w32 : S1x128.Iotas .tc 32 [1]
  broadcasts_S1x1_S1x128 : S1x1.Broadcasts S1x128
  shapeCasts_S1x128_S1x128 : S1x128.ShapeCasts S1x128
  slices_S1x128_S1x1_0_0 : S1x128.Slices ![0, 0] S1x1
  shapeCasts_S1x1_S_ : S1x1.ShapeCasts S_
  slices_S1x128_S1x1_0_1 : S1x128.Slices ![0, 1] S1x1
  slices_S1x128_S1x1_0_2 : S1x128.Slices ![0, 2] S1x1
  slices_S1x128_S1x1_0_3 : S1x128.Slices ![0, 3] S1x1
  slices_S1x128_S1x1_0_4 : S1x128.Slices ![0, 4] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S262144x64.size a
  hwx0_0 : ∀ i : grid0.Coords, EltTy.bits .f32 = 32 ∨ (Rect.block (s := S262144x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S262144x64.size a
  hwx0_1 : ∀ i : grid0.Coords, EltTy.bits .f32 = 32 ∨ (Rect.block (s := S262144x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S262144x64.size a
  hwx0_2 : ∀ i : grid0.Coords, EltTy.bits .f32 = 32 ∨ (Rect.block (s := S262144x64) S4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S262144x64.size a
  hwx0_3 : ∀ i : grid0.Coords, EltTy.bits .f32 = 32 ∨ (Rect.block (s := S262144x64) S4096x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x64.size a ≤ S262144x64.size a
  hwx0_4 : ∀ i : grid0.Coords, EltTy.bits .f32 = 32 ∨ (Rect.block (s := S262144x64) S4096x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S262144.size a
  hwx0_5 : ∀ i : grid0.Coords, EltTy.bits .f32 = 32 ∨ (Rect.block (s := S262144) S4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096.size a ≤ S262144.size a
  hwx0_6 : ∀ i : grid0.Coords, EltTy.bits .f32 = 32 ∨ (Rect.block (s := S262144) S4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096.size a ≤ S262144.size a
  hwx0_7 : ∀ i : grid0.Coords, EltTy.bits .f32 = 32 ∨ (Rect.block (s := S262144) S4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096.size a ≤ S262144.size a
  hwx0_8 : ∀ i : grid0.Coords, EltTy.bits .f32 = 32 ∨ (Rect.block (s := S262144) S4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096.size a ≤ S262144.size a
  hwx0_9 : ∀ i : grid0.Coords, EltTy.bits .f32 = 32 ∨ (Rect.block (s := S262144) S4096.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)

variable [Facts₀]

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4096x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4096.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4096.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S4096.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S4096.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0) S1x128.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S262144x64 : Shape := ⟨2, ![262144, 64]⟩
abbrev S262144 : Shape := ⟨1, ![262144]⟩
abbrev S_ : Shape := ⟨0, ![]⟩

abbrev nBuf : Space → Nat
  | .hbm => 109
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S262144x64, .f32⟩
  | .hbm, ⟨2, _⟩ => ⟨S262144x64, .f32⟩
  | .hbm, ⟨3, _⟩ => ⟨S262144x64, .f32⟩
  | .hbm, ⟨4, _⟩ => ⟨S262144x64, .f32⟩
  | .hbm, ⟨5, _⟩ => ⟨S262144, .f32⟩
  | .hbm, ⟨6, _⟩ => ⟨S262144, .f32⟩
  | .hbm, ⟨7, _⟩ => ⟨S262144, .f32⟩
  | .hbm, ⟨8, _⟩ => ⟨S262144, .f32⟩
  | .hbm, ⟨9, _⟩ => ⟨S262144, .f32⟩
  | .hbm, ⟨10, _⟩ => ⟨S262144x64, .f32⟩
  | .hbm, ⟨11, _⟩ => ⟨S262144x64, .f32⟩
  | .hbm, ⟨12, _⟩ => ⟨S_, .f32⟩
  | .hbm, ⟨13, _⟩ => ⟨S262144x64, .f32⟩
  | .hbm, ⟨14, _⟩ => ⟨S262144x64, .f32⟩
  | .hbm, ⟨15, _⟩ => ⟨S262144x64, .f32⟩
  | .hbm, ⟨16, _⟩ => ⟨S262144x64, .f32⟩
  | .hbm, ⟨17, _⟩ => ⟨S262144x64, .f32⟩
  | .hbm, ⟨18, _⟩ => ⟨S_, .f32⟩
  | .hbm, ⟨19, _⟩ => ⟨S262144x64, .f32⟩
  | .hbm, ⟨20, _⟩ => ⟨S262144x64, .f32⟩
  | .hbm, ⟨21, _⟩ => ⟨S_, .f32⟩
  | .hbm, ⟨22, _⟩ => ⟨S262144, .f32⟩
  | .hbm, ⟨23, _⟩ => ⟨S262144x64, .f32⟩
  | .hbm, ⟨24, _⟩ => ⟨S262144x64, .f32⟩
  | .hbm, ⟨25, _⟩ => ⟨S_, .f32⟩
  | .hbm, ⟨26, _⟩ => ⟨S262144x64, .f32⟩
  | .hbm, ⟨27, _⟩ => ⟨S262144x64, .f32⟩
  | .hbm, ⟨28, _⟩ => ⟨S262144x64, .f32⟩
  | .hbm, ⟨29, _⟩ => ⟨S262144x64, .f32⟩
  | .hbm, ⟨30, _⟩ => ⟨S262144x64, .f32⟩
  | .hbm, ⟨31, _⟩ => ⟨S_, .f32⟩
  | .hbm, ⟨32, _⟩ => ⟨S262144x64, .f32⟩
  | .hbm, ⟨33, _⟩ => ⟨S262144x64, .f32⟩
  | .hbm, ⟨34, _⟩ => ⟨S_, .f32⟩
  | .hbm, ⟨35, _⟩ => ⟨S262144, .f32⟩
  | .hbm, ⟨36, _⟩ => ⟨S262144, .f32⟩
  | .hbm, ⟨37, _⟩ => ⟨S262144, .f32⟩
  | .hbm, ⟨38, _⟩ => ⟨S262144, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S262144, .f32⟩
  | .hbm, ⟨43, _⟩ => ⟨S262144, .f32⟩
  | .hbm, ⟨44, _⟩ => ⟨S_, .f32⟩
  | .hbm, ⟨45, _⟩ => ⟨S262144, .f32⟩
  | .hbm, ⟨46, _⟩ => ⟨S262144, .f32⟩
  | .hbm, ⟨47, _⟩ => ⟨S262144, .f32⟩
  | .hbm, ⟨48, _⟩ => ⟨S262144, .f32⟩
  | .hbm, ⟨49, _⟩ => ⟨S_, .f32⟩
  | .hbm, ⟨50, _⟩ => ⟨S262144, .f32⟩
  | .hbm, ⟨51, _⟩ => ⟨S262144, .f32⟩
  | .hbm, ⟨52, _⟩ => ⟨S262144, .f32⟩
  | .hbm, ⟨53, _⟩ => ⟨S262144, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S262144x64, .f32⟩
  | .hbm, ⟨60, _⟩ => ⟨S_, .f32⟩
  | .hbm, ⟨61, _⟩ => ⟨S262144x64, .f32⟩
  | .hbm, ⟨62, _⟩ => ⟨S262144x64, .f32⟩
  | .hbm, ⟨63, _⟩ => ⟨S_, .f32⟩
  | .hbm, ⟨64, _⟩ => ⟨S262144, .f32⟩
  | .hbm, ⟨65, _⟩ => ⟨S262144, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S262144, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S262144, .f32⟩
  | .hbm, ⟨75, _⟩ => ⟨S262144, .f32⟩
  | .hbm, ⟨76, _⟩ => ⟨S_, .f32⟩
  | .hbm, ⟨77, _⟩ => ⟨S262144, .f32⟩
  | .hbm, ⟨78, _⟩ => ⟨S262144, .f32⟩
  | .hbm, ⟨79, _⟩ => ⟨S262144, .f32⟩
  | .hbm, ⟨80, _⟩ => ⟨S262144, .f32⟩
  | .hbm, ⟨81, _⟩ => ⟨S262144, .f32⟩
  | .hbm, ⟨82, _⟩ => ⟨S262144, .f32⟩
  | .hbm, ⟨83, _⟩ => ⟨S262144, .f32⟩
  | .hbm, ⟨84, _⟩ => ⟨S262144, .f32⟩
  | .hbm, ⟨85, _⟩ => ⟨S262144, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S262144, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S262144, .f32⟩
  | .hbm, ⟨99, _⟩ => ⟨S262144, .f32⟩
  | .hbm, ⟨100, _⟩ => ⟨S262144, .f32⟩
  | .hbm, ⟨101, _⟩ => ⟨S_, .f32⟩
  | .hbm, ⟨102, _⟩ => ⟨S262144, .f32⟩
  | .hbm, ⟨103, _⟩ => ⟨S262144, .i1⟩
  | .hbm, ⟨104, _⟩ => ⟨S262144, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_cst_6 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_7 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_8 : Ref sig .tc := ⟨.hbm, 54, rfl⟩
abbrev main_v30 : Ref sig .tc := ⟨.hbm, 55, rfl⟩
abbrev main_cst_9 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_10 : Ref sig .tc := ⟨.hbm, 60, rfl⟩
abbrev main_v34 : Ref sig .tc := ⟨.hbm, 61, rfl⟩
abbrev main_v35 : Ref sig .tc := ⟨.hbm, 62, rfl⟩
abbrev main_cst_11 : Ref sig .tc := ⟨.hbm, 63, rfl⟩
abbrev main_v36 : Ref sig .tc := ⟨.hbm, 64, rfl⟩
abbrev main_v37 : Ref sig .tc := ⟨.hbm, 65, rfl⟩
abbrev main_cst_12 : Ref sig .tc := ⟨.hbm, 66, rfl⟩
abbrev main_v38 : Ref sig .tc := ⟨.hbm, 67, rfl⟩
abbrev main_cst_13 : Ref sig .tc := ⟨.hbm, 68, rfl⟩
abbrev main_v39 : Ref sig .tc := ⟨.hbm, 69, rfl⟩
abbrev main_v40 : Ref sig .tc := ⟨.hbm, 70, rfl⟩
abbrev main_cst_14 : Ref sig .tc := ⟨.hbm, 71, rfl⟩
abbrev main_cst_15 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_16 : Ref sig .tc := ⟨.hbm, 86, rfl⟩
abbrev main_v49 : Ref sig .tc := ⟨.hbm, 87, rfl⟩
abbrev main_cst_17 : Ref sig .tc := ⟨.hbm, 88, rfl⟩
abbrev main_v50 : Ref sig .tc := ⟨.hbm, 89, rfl⟩
abbrev main_cst_18 : Ref sig .tc := ⟨.hbm, 90, rfl⟩
abbrev main_v51 : Ref sig .tc := ⟨.hbm, 91, rfl⟩
abbrev main_v52 : Ref sig .tc := ⟨.hbm, 92, rfl⟩
abbrev main_cst_19 : Ref sig .tc := ⟨.hbm, 93, rfl⟩
abbrev main_v53 : Ref sig .tc := ⟨.hbm, 94, rfl⟩
abbrev main_cst_20 : Ref sig .tc := ⟨.hbm, 95, rfl⟩
abbrev main_v54 : Ref sig .tc := ⟨.hbm, 96, rfl⟩
abbrev main_cst_21 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_cst_22 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_23 : Ref sig .tc := ⟨.hbm, 105, rfl⟩
abbrev main_v61 : Ref sig .tc := ⟨.hbm, 106, rfl⟩
abbrev main_cst_24 : Ref sig .tc := ⟨.hbm, 107, rfl⟩
abbrev main_v62 : Ref sig .tc := ⟨.hbm, 108, rfl⟩

abbrev nD : Nat := 1
abbrev τ : Topo := Topo.v7x

variable {F : FTy → Type} [FloatOps F]

class Facts₀ : Prop where
  bcast_S_S262144x64 : S_.BroadcastsInDim S262144x64 (![] : Fin 0 → Fin S262144x64.rank)
  reducesTo_S262144x64_S262144_d1 : S262144x64.ReducesTo [1] S262144
  h_S_ : 0 < S_.numel
  bcast_S_S262144 : S_.BroadcastsInDim S262144 (![] : Fin 0 → Fin S262144.rank)
  reducesTo_S262144_S_d0 : S262144.ReducesTo [0] S_

variable [Facts₀]

class Facts : Prop extends Facts₀ where

variable [Facts]
-- ==== Proof.Spec.lean ====
/-
  The five PPO losses as functions of the ten argument arrays, over the extended reals.

  A batch has 262144 rows; five arrays are 262144 x 64 (new and old means and standard deviations, the
  action) and five are 262144-vectors (new and old value, advantage, return, weight). Row r contributes
    * its clipped, dual-clipped surrogate  max (min (ρ·A) (clip ρ 0.8 1.2 · A)) (5·A) · w,
    * its clipped value error              max ((R − v)²) ((R − (v₀ + clip (v − v₀) ∓0.2))²) · w,
    * its Gaussian entropy                 (Σ_j (½ + ½ log 2π + log σ_j)) · w,
    * the log-density gap                  log p_old − log p_new,
    * the indicator of |ρ − 1| > 0.2,
  where ρ = exp (log p_new − log p_old) and log p = Σ_j (−½ z_j) z_j − log σ_j − ½ log 2π, z_j = (a_j − μ_j)/σ_j.
  Each loss is the batch total of its row quantity divided by the batch size (the first negated, the second
  halved). Every operation is the exact one on the extended reals; the float literals stay as their words.
-/
import Idealize.ShloMosaic.PureOps.Ideal
import Idealize.ShloMosaic.Lib.ValueIdx

noncomputable section

namespace Cert.Losses

open Idealize.ShloMosaic Idealize.ShloMosaic.ValueIdx

/-- A 262144 x 64 array of extended reals. -/
abbrev Mat : Type := (⟨2, ![262144, 64]⟩ : Shape).Idx → EReal
/-- A 262144-vector of extended reals. -/
abbrev Col : Type := (⟨1, ![262144]⟩ : Shape).Idx → EReal

/-- The ten arguments, in the programs' order. -/
structure Args where
  muNew : Mat
  sigmaNew : Mat
  muOld : Mat
  sigmaOld : Mat
  action : Mat
  valueNew : Col
  valueOld : Col
  adv : Col
  ret : Col
  weight : Col

/-! ## The literals, as the words both programs print -/

def negHalf : EReal := Ideal.ofBits .f32 0xBF000000#32
def halfLog2Pi : EReal := Ideal.ofBits .f32 0x3F6B3F8E#32
def ratioLo : EReal := Ideal.ofBits .f32 0x3F4CCCCD#32
def ratioHi : EReal := Ideal.ofBits .f32 0x3F99999A#32
def dualClip : EReal := Ideal.ofBits .f32 0x40A00000#32
def entropyConst : EReal := Ideal.ofBits .f32 0x3FB59FC7#32
def valueLo : EReal := Ideal.ofBits .f32 0xBE4CCCCD#32
def valueHi : EReal := Ideal.ofBits .f32 0x3E4CCCCD#32
def oneWord : EReal := Ideal.ofBits .f32 0x3F800000#32
def halfWord : EReal := Ideal.ofBits .f32 0x3F000000#32
def batchSize : EReal := Ideal.ofBits .f32 0x48800000#32

/-! ## Row quantities -/

/-- The log-density of row `r` of `act` under the diagonal Gaussian with means `mu` and deviations `sigma`. -/
def logp (act mu sigma : Mat) (r : Fin 262144) : EReal :=
  ∑ j : Fin 64, (negHalf * Ideal.div (act (ix2 r j) - mu (ix2 r j)) (sigma (ix2 r j))
      * Ideal.div (act (ix2 r j) - mu (ix2 r j)) (sigma (ix2 r j))
    - Ideal.log (sigma (ix2 r j)) - halfLog2Pi)

/-- The probability ratio of row `r`. -/
def ratio (x : Args) (r : Fin 262144) : EReal :=
  Ideal.exp (logp x.action x.muNew x.sigmaNew r - logp x.action x.muOld x.sigmaOld r)

/-- The weighted dual-clipped surrogate of row `r`. -/
def policyRow (x : Args) (r : Fin 262144) : EReal :=
  max (min (ratio x r * x.adv (ix1 r)) (min ratioHi (max ratioLo (ratio x r)) * x.adv (ix1 r)))
      (dualClip * x.adv (ix1 r))
    * x.weight (ix1 r)

/-- The clipped value prediction of row `r`. -/
def valueClip (x : Args) (r : Fin 262144) : EReal :=
  x.valueOld (ix1 r) + min valueHi (max valueLo (x.valueNew (ix1 r) - x.valueOld (ix1 r)))

/-- The weighted larger squared value error of row `r`. -/
def valueRow (x : Args) (r : Fin 262144) : EReal :=
  max ((x.ret (ix1 r) - x.valueNew (ix1 r)) * (x.ret (ix1 r) - x.valueNew (ix1 r)))
      ((x.ret (ix1 r) - valueClip x r) * (x.ret (ix1 r) - valueClip x r))
    * x.weight (ix1 r)

/-- The weighted Gaussian entropy of row `r`. -/
def entropyRow (x : Args) (r : Fin 262144) : EReal :=
  (∑ j : Fin 64, (entropyConst + Ideal.log (x.sigmaNew (ix2 r j)))) * x.weight (ix1 r)

/-- The log-density gap of row `r`, old minus new. -/
def klRow (x : Args) (r : Fin 262144) : EReal :=
  logp x.action x.muOld x.sigmaOld r - logp x.action x.muNew x.sigmaNew r

/-- Whether row `r`'s ratio left the clip band, as a one-bit word. -/
def clippedBit (x : Args) (r : Fin 262144) : BitVec 1 :=
  FloatOps.cmpf (F := Ideal) .ogt (FloatOps.absf (F := Ideal) (φ := .f32) (ratio x r - oneWord)) valueHi

/-- The same as 0 or 1. -/
def clipFracRow (x : Args) (r : Fin 262144) : EReal :=
  FloatOps.uitofp (F := Ideal) .f32 (clippedBit x r)

/-! ## The losses -/

/-- The batch total of a row quantity. -/
def total (f : Fin 262144 → EReal) : EReal := ∑ r : Fin 262144, f r

def policyLoss (x : Args) : EReal := -(Ideal.div (total (policyRow x)) batchSize)
def valueLoss (x : Args) : EReal := halfWord * Ideal.div (total (valueRow x)) batchSize
def entropyLoss (x : Args) : EReal := Ideal.div (total (entropyRow x)) batchSize
def approxKl (x : Args) : EReal := Ideal.div (total (klRow x)) batchSize
def clipFrac (x : Args) : EReal := Ideal.div (total (clipFracRow x)) batchSize

end Cert.Losses

end
-- ==== Proof.Blocks.lean ====
/-
  How the kernel walks the batch: 64 blocks of 4096 rows. Inside a block the 4096 row quantities are laid out
  as 32 sublanes by 128 lanes (row 128·s + l at sublane s, lane l), summed over the sublanes and then over the
  lanes; the block totals are added up block after block. Five such totals travel together in lanes 0..4 of a
  128-lane vector whose other lanes are zero.
-/
import proofs.«415962_j16527034155702_4_alg».proof.Proof.Spec

noncomputable section

namespace Cert.Losses

open Idealize.ShloMosaic Idealize.ShloMosaic.ValueIdx

/-- A row quantity read at any natural number: zero past the batch. -/
def ext (f : Fin 262144 → EReal) (n : ℕ) : EReal := if h : n < 262144 then f ⟨n, h⟩ else 0

/-- The total of block `t` in the kernel's order: lanes outside, sublanes inside. -/
def blockSum (f : Fin 262144 → EReal) (t : ℕ) : EReal :=
  ∑ l : Fin 128, ∑ s : Fin 32, ext f (4096 * t + (128 * s.val + l.val))

/-- The total of blocks `0 … n`, added in order. -/
def runSum (f : Fin 262144 → EReal) : ℕ → EReal
  | 0 => blockSum f 0
  | n + 1 => runSum f n + blockSum f (n + 1)

/-- Row `p` of block `t`. -/
def blockRow (t : Fin 64) (p : Fin 4096) : Fin 262144 := ⟨4096 * t.val + p.val, by omega⟩

/-- The five row quantities, numbered as the lanes that carry their totals. -/
def rowQuantity (x : Args) : Fin 5 → Fin 262144 → EReal
  | 0 => policyRow x
  | 1 => valueRow x
  | 2 => entropyRow x
  | 3 => klRow x
  | 4 => clipFracRow x

/-- Five numbers in lanes 0..4 of a 128-lane row, zero elsewhere. -/
def pack (v : Fin 5 → EReal) (l : Fin 128) : EReal :=
  if l.val = 0 then v 0 else if l.val = 1 then v 1 else if l.val = 2 then v 2
  else if l.val = 3 then v 3 else if l.val = 4 then v 4 else 0

/-- What the last block's epilogue makes of the five accumulated totals. -/
def scaled (v : Fin 5 → EReal) : Fin 5 → EReal
  | 0 => Ideal.div (Ideal.ofBits .f32 0x00000000#32 - v 0) batchSize
  | 1 => Ideal.div (halfWord * v 1) batchSize
  | 2 => Ideal.div (v 2) batchSize
  | 3 => Ideal.div (v 3) batchSize
  | 4 => Ideal.div (v 4) batchSize

/-- The five losses, numbered as the lanes. -/
def loss (x : Args) : Fin 5 → EReal
  | 0 => policyLoss x
  | 1 => valueLoss x
  | 2 => entropyLoss x
  | 3 => approxKl x
  | 4 => clipFrac x

end Cert.Losses

end
-- ==== Proof.KernelTerms.lean ====
/-
  The kernel body's arithmetic, named by what it computes from the ten blocks a grid point loads
  (new mean, new deviation, old mean, old deviation, action: 4096 x 64; new value, old value, advantage,
  return, weight: 4096): the block totals of the policy and value quantities, the entropy rows laid out
  32 x 128, the log-density gap and the clip indicator per row, and the 128-lane row that packs the five
  block totals.
-/
import proofs.«415962_j16527034155702_4_alg».proof.Proof.Gen.KernelIdeal.Skeleton
import proofs.«415962_j16527034155702_4_alg».proof.Proof.Blocks

noncomputable section

namespace Cert.KernelIdeal.Terms

open Idealize.ShloMosaic Idealize.SL.Sem Cert.KernelIdeal Cert.KernelIdeal.Gen

variable {F : FTy → Type} [FloatOps F]

/-- The block's total of the weighted dual-clipped surrogate, as a 1 x 1 vector. -/
def polTot (x0 x1 x2 x3 x4 : Vec F S4096x64 .f32) (x7 x9 : Vec F S4096 .f32) : FVec F S1x1 .f32 :=
  k0_pay12 x7 x9 (k0_pay7 x0 x1 x2 x3 x4 x7) (k0_pay8 x0 x1 x2 x3 x4) k0_pay9

/-- The block's total of the weighted clipped value error, as a 1 x 1 vector. -/
def valTot (x5 x6 x8 x9 : Vec F S4096 .f32) : FVec F S1x1 .f32 :=
  k0_pay13 x9 x5 x6 x8

/-- The block's weighted entropies, row 128·s + l at (s, l). -/
def entBlk (x1 : Vec F S4096x64 .f32) (x9 : Vec F S4096 .f32) : FVec F S32x128 .f32 :=
  k0_pay14 x1 x9

/-- The block's log-density gaps, old minus new. -/
def klVec (x0 x1 x2 x3 x4 : Vec F S4096x64 .f32) : FVec F S4096 .f32 :=
  k0_pay10 (k0_pay4 x0 x1 x4) (k0_pay5 x2 x3 x4)

/-- The block's clip indicators. -/
def cfVec (x0 x1 x2 x3 x4 : Vec F S4096x64 .f32) : FVec F S4096 .f32 :=
  k0_pay11 (k0_pay6 x0 x1 x2 x3 x4)

/-- The 128-lane row holding the block's five totals in lanes 0..4. -/
def partialOf (x0 x1 x2 x3 x4 : Vec F S4096x64 .f32) (x5 x6 x7 x8 x9 : Vec F S4096 .f32) : FVec F S1x128 .f32 :=
  k0_pay20 (klVec x0 x1 x2 x3 x4) (cfVec x0 x1 x2 x3 x4) (polTot x0 x1 x2 x3 x4 x7 x9) (valTot x5 x6 x8 x9) (entBlk x1 x9)

/-- The accumulator after a block: what it held plus the block's row. -/
def accumulated (x0 x1 x2 x3 x4 : Vec F S4096x64 .f32) (x5 x6 x7 x8 x9 : Vec F S4096 .f32) (acc : Vec F S1x128 .f32) :
    FVec F S1x128 .f32 :=
  k0_pay1 (partialOf x0 x1 x2 x3 x4 x5 x6 x7 x8 x9) acc

/-- The epilogue's row: the five accumulated totals scaled, packed again. -/
def finalized (acc : Vec F S1x128 .f32) : FVec F S1x128 .f32 :=
  k0_pay2 (k0_pay15 (F := F)) (k0_pay16 (F := F)) (k0_pay17 (F := F)) (k0_pay18 (F := F)) (k0_pay19 (F := F)) acc

/-- The 4096 x 64 block `x` is rows `4096·t …` of the array `A`. -/
def IsBlock2 (A : Losses.Mat) (t : Fin 64) (x : Vec Ideal S4096x64 .f32) : Prop :=
  ∀ (p : Fin 4096) (j : Fin 64), x (ValueIdx.ix2 p j) = A (ValueIdx.ix2 (Losses.blockRow t p) j)

/-- The 4096-block `x` is entries `4096·t …` of the vector `a`. -/
def IsBlock1 (a : Losses.Col) (t : Fin 64) (x : Vec Ideal S4096 .f32) : Prop :=
  ∀ p : Fin 4096, x (ValueIdx.ix1 p) = a (ValueIdx.ix1 (Losses.blockRow t p))

end Cert.KernelIdeal.Terms

end
-- ==== Proof.Pieces.lean ====
/-
  What each of the body's three control cases leaves in the resident 1 x 128 output block, as the named terms of
  the body's arithmetic: the first grid point zero-fills the block and adds its own row of block totals; a middle
  point adds its row to what the point before left; the last point adds its row and then replaces the block by the
  five scaled totals.
-/
import proofs.«415962_j16527034155702_4_alg».proof.Proof.Gen.KernelIdeal.Frame
import proofs.«415962_j16527034155702_4_alg».proof.Proof.KernelTerms
import Idealize.ShloMosaic.Lib.Pipeline.Value

set_option maxRecDepth 16384

noncomputable section

namespace Cert.KernelIdeal.Terms

open Idealize.ShloMosaic Idealize.ShloMosaic.TcCoe Idealize.ShloMosaic.Tactic Idealize.SL.Sem Cert.KernelIdeal Cert.KernelIdeal.Gen

variable {F : FTy → Type} [FloatOps F]

theorem offZero : (![0, 0] : Fin 2 → Nat) = fun _ => 0 := funext fun a => by fin_cases a <;> rfl
theorem offZero1 : (![0] : Fin 1 → Nat) = fun _ => 0 := funext fun a => by fin_cases a; rfl

/-- A middle point: the block read back, plus the point's row of block totals. -/
theorem out0_B_10_eq (c : Dev nD) (i : grid0.Coords) (arg1 : Memref sig .tc .vmem S4096x64 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S4096x64 .f32) (harg4 : arg4.IsWhole) (arg5 : Memref sig .tc .vmem S4096x64 .f32) (harg5 : arg5.IsWhole) (arg6 : Memref sig .tc .vmem S4096 .f32) (harg6 : arg6.IsWhole) (arg7 : Memref sig .tc .vmem S4096 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S1x128 .f32) (harg11 : arg11.IsWhole) (hc0 : ¬cond0_0 i) (hc1 : ¬cond0_1 i)
    (x0 : Vec F S4096x64 .f32) (x1 : Vec F S4096x64 .f32) (x2 : Vec F S4096x64 .f32) (x3 : Vec F S4096x64 .f32) (x4 : Vec F S4096x64 .f32) (x5 : Vec F S4096 .f32) (x6 : Vec F S4096 .f32) (x7 : Vec F S4096 .f32) (x8 : Vec F S4096 .f32) (x9 : Vec F S4096 .f32) (xo10 : Vec F S1x128 .f32) :
    out0_B_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 x9 xo10 = accumulated x0 x1 x2 x3 x4 x5 x6 x7 x8 x9 xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 x9 xo10)]
  unfold kernelRun0_B
  dsimp only
  sl_unfold_words
  rw [View.canon_unit_zero offZero]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4096x64) offZero, View.ld_unit_zero (S := S4096) offZero1, View.ld_unit_zero (S := S1x128) offZero, View.readCov_unit_zero (S := S1x128) _ offZero]
  rfl

/-- The first point: the zero row, plus the point's row of block totals. -/
theorem out0_A_10_eq (c : Dev nD) (i : grid0.Coords) (arg1 : Memref sig .tc .vmem S4096x64 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S4096x64 .f32) (harg4 : arg4.IsWhole) (arg5 : Memref sig .tc .vmem S4096x64 .f32) (harg5 : arg5.IsWhole) (arg6 : Memref sig .tc .vmem S4096 .f32) (harg6 : arg6.IsWhole) (arg7 : Memref sig .tc .vmem S4096 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S1x128 .f32) (harg11 : arg11.IsWhole) (hc0 : cond0_0 i) (hc1 : ¬cond0_1 i)
    (x0 : Vec F S4096x64 .f32) (x1 : Vec F S4096x64 .f32) (x2 : Vec F S4096x64 .f32) (x3 : Vec F S4096x64 .f32) (x4 : Vec F S4096x64 .f32) (x5 : Vec F S4096 .f32) (x6 : Vec F S4096 .f32) (x7 : Vec F S4096 .f32) (x8 : Vec F S4096 .f32) (x9 : Vec F S4096 .f32) :
    out0_A_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 x9 = accumulated x0 x1 x2 x3 x4 x5 x6 x7 x8 x9 (k0_pay3 (F := F)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 x9)]
  unfold kernelRun0_A
  dsimp only
  sl_unfold_words
  rw [View.canon_cons_unit_zero (S := S1x128) offZero]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4096x64) offZero, View.ld_unit_zero (S := S4096) offZero1, View.ld_unit_zero (S := S1x128) offZero, View.readCov_unit_zero (S := S1x128) _ offZero]
  rfl

/-- The last point: the accumulated block, finalized. -/
theorem out0_C_10_eq (c : Dev nD) (i : grid0.Coords) (arg1 : Memref sig .tc .vmem S4096x64 .f32) (harg1 : arg1.IsWhole) (arg2 : Memref sig .tc .vmem S4096x64 .f32) (harg2 : arg2.IsWhole) (arg3 : Memref sig .tc .vmem S4096x64 .f32) (harg3 : arg3.IsWhole) (arg4 : Memref sig .tc .vmem S4096x64 .f32) (harg4 : arg4.IsWhole) (arg5 : Memref sig .tc .vmem S4096x64 .f32) (harg5 : arg5.IsWhole) (arg6 : Memref sig .tc .vmem S4096 .f32) (harg6 : arg6.IsWhole) (arg7 : Memref sig .tc .vmem S4096 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S1x128 .f32) (harg11 : arg11.IsWhole) (hc0 : ¬cond0_0 i) (hc1 : cond0_1 i)
    (x0 : Vec F S4096x64 .f32) (x1 : Vec F S4096x64 .f32) (x2 : Vec F S4096x64 .f32) (x3 : Vec F S4096x64 .f32) (x4 : Vec F S4096x64 .f32) (x5 : Vec F S4096 .f32) (x6 : Vec F S4096 .f32) (x7 : Vec F S4096 .f32) (x8 : Vec F S4096 .f32) (x9 : Vec F S4096 .f32) (xo10 : Vec F S1x128 .f32) :
    out0_C_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 x9 xo10 = finalized (accumulated x0 x1 x2 x3 x4 x5 x6 x7 x8 x9 xo10) := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 x9 xo10)]
  unfold kernelRun0_C
  dsimp only
  sl_unfold_words
  rw [View.canon_cons_unit_zero (S := S1x128) offZero]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4096x64) offZero, View.ld_unit_zero (S := S4096) offZero1, View.ld_unit_zero (S := S1x128) offZero, View.readCov_unit_zero (S := S1x128) _ offZero]
  rfl

end Cert.KernelIdeal.Terms

end
-- ==== Proof.BlockReads.lean ====
/-
  The blocks a grid point loads are slices of the argument arrays: grid point t stages rows 4096·t … 4096·t + 4095
  of each of the five 262144 x 64 arrays (all 64 columns) and the same entries of each of the five 262144-vectors.
-/
import proofs.«415962_j16527034155702_4_alg».proof.Proof.Gen.KernelIdeal.Frame
import proofs.«415962_j16527034155702_4_alg».proof.Proof.KernelTerms

set_option maxRecDepth 16384

noncomputable section

namespace Cert.KernelIdeal.Terms

open Idealize.ShloMosaic Idealize.ShloMosaic.TcCoe Idealize.ShloMosaic.ValueIdx Idealize.SL.Sem
open Cert.KernelIdeal Cert.KernelIdeal.Gen Cert.Losses

variable (m : (ℓ : Loc nD τ sig) → Buf (Elt Ideal) ℓ)

/-- The ten argument arrays on core `c`, in the programs' order. -/
def args (c : Dev nD) : Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9)⟩

/-- A grid point as a block number. -/
def pt (t : Fin cfg0.N) : Fin 64 := ⟨t.val, lt_of_lt_of_eq t.isLt N_0⟩

/-! ## The index maps, decided over the grid: block t along the rows, block 0 along the columns -/

theorem idx2_0 : ∀ t : Fin cfg0.N, win0_0.index t (0 : Fin 2) = t.val ∧ win0_0.index t (1 : Fin 2) = 0 :=
  (by decide +kernel : ∀ t : Fin grid0.N, _)
theorem idx2_1 : ∀ t : Fin cfg0.N, win0_1.index t (0 : Fin 2) = t.val ∧ win0_1.index t (1 : Fin 2) = 0 :=
  (by decide +kernel : ∀ t : Fin grid0.N, _)
theorem idx2_2 : ∀ t : Fin cfg0.N, win0_2.index t (0 : Fin 2) = t.val ∧ win0_2.index t (1 : Fin 2) = 0 :=
  (by decide +kernel : ∀ t : Fin grid0.N, _)
theorem idx2_3 : ∀ t : Fin cfg0.N, win0_3.index t (0 : Fin 2) = t.val ∧ win0_3.index t (1 : Fin 2) = 0 :=
  (by decide +kernel : ∀ t : Fin grid0.N, _)
theorem idx2_4 : ∀ t : Fin cfg0.N, win0_4.index t (0 : Fin 2) = t.val ∧ win0_4.index t (1 : Fin 2) = 0 :=
  (by decide +kernel : ∀ t : Fin grid0.N, _)
theorem idx1_5 : ∀ t : Fin cfg0.N, win0_5.index t (0 : Fin 1) = t.val :=
  (by decide +kernel : ∀ t : Fin grid0.N, _)
theorem idx1_6 : ∀ t : Fin cfg0.N, win0_6.index t (0 : Fin 1) = t.val :=
  (by decide +kernel : ∀ t : Fin grid0.N, _)
theorem idx1_7 : ∀ t : Fin cfg0.N, win0_7.index t (0 : Fin 1) = t.val :=
  (by decide +kernel : ∀ t : Fin grid0.N, _)
theorem idx1_8 : ∀ t : Fin cfg0.N, win0_8.index t (0 : Fin 1) = t.val :=
  (by decide +kernel : ∀ t : Fin grid0.N, _)
theorem idx1_9 : ∀ t : Fin cfg0.N, win0_9.index t (0 : Fin 1) = t.val :=
  (by decide +kernel : ∀ t : Fin grid0.N, _)

/-! ## The blocks -/

/-- Block `t` of window 0 is rows `4096·t …` of argument 0. -/
theorem blk0_isBlock (c : Dev nD) (t : Fin cfg0.N) : IsBlock2 (args m c).muNew (pt t) (iblk m c 0 t) := by
  intro p j
  obtain ⟨e0, e1⟩ := idx2_0 t
  show V m c main_arg0 (((cfg0.win 0).blk t).view.emb (ix2 p j)) = V m c main_arg0 (ix2 (blockRow (pt t) p) j)
  refine congrArg _ ?_
  funext a; apply Fin.ext
  match a with
  | ⟨0, _⟩ => show win0_0.index t (0 : Fin 2) * 4096 + 1 * p.val = 4096 * t.val + p.val; omega
  | ⟨1, _⟩ => show win0_0.index t (1 : Fin 2) * 64 + 1 * j.val = j.val; omega

/-- Block `t` of window 1 is rows `4096·t …` of argument 1. -/
theorem blk1_isBlock (c : Dev nD) (t : Fin cfg0.N) : IsBlock2 (args m c).sigmaNew (pt t) (iblk m c 1 t) := by
  intro p j
  obtain ⟨e0, e1⟩ := idx2_1 t
  show V m c main_arg1 (((cfg0.win 1).blk t).view.emb (ix2 p j)) = V m c main_arg1 (ix2 (blockRow (pt t) p) j)
  refine congrArg _ ?_
  funext a; apply Fin.ext
  match a with
  | ⟨0, _⟩ => show win0_1.index t (0 : Fin 2) * 4096 + 1 * p.val = 4096 * t.val + p.val; omega
  | ⟨1, _⟩ => show win0_1.index t (1 : Fin 2) * 64 + 1 * j.val = j.val; omega

/-- Block `t` of window 2 is rows `4096·t …` of argument 2. -/
theorem blk2_isBlock (c : Dev nD) (t : Fin cfg0.N) : IsBlock2 (args m c).muOld (pt t) (iblk m c 2 t) := by
  intro p j
  obtain ⟨e0, e1⟩ := idx2_2 t
  show V m c main_arg2 (((cfg0.win 2).blk t).view.emb (ix2 p j)) = V m c main_arg2 (ix2 (blockRow (pt t) p) j)
  refine congrArg _ ?_
  funext a; apply Fin.ext
  match a with
  | ⟨0, _⟩ => show win0_2.index t (0 : Fin 2) * 4096 + 1 * p.val = 4096 * t.val + p.val; omega
  | ⟨1, _⟩ => show win0_2.index t (1 : Fin 2) * 64 + 1 * j.val = j.val; omega

/-- Block `t` of window 3 is rows `4096·t …` of argument 3. -/
theorem blk3_isBlock (c : Dev nD) (t : Fin cfg0.N) : IsBlock2 (args m c).sigmaOld (pt t) (iblk m c 3 t) := by
  intro p j
  obtain ⟨e0, e1⟩ := idx2_3 t
  show V m c main_arg3 (((cfg0.win 3).blk t).view.emb (ix2 p j)) = V m c main_arg3 (ix2 (blockRow (pt t) p) j)
  refine congrArg _ ?_
  funext a; apply Fin.ext
  match a with
  | ⟨0, _⟩ => show win0_3.index t (0 : Fin 2) * 4096 + 1 * p.val = 4096 * t.val + p.val; omega
  | ⟨1, _⟩ => show win0_3.index t (1 : Fin 2) * 64 + 1 * j.val = j.val; omega

/-- Block `t` of window 4 is rows `4096·t …` of argument 4. -/
theorem blk4_isBlock (c : Dev nD) (t : Fin cfg0.N) : IsBlock2 (args m c).action (pt t) (iblk m c 4 t) := by
  intro p j
  obtain ⟨e0, e1⟩ := idx2_4 t
  show V m c main_arg4 (((cfg0.win 4).blk t).view.emb (ix2 p j)) = V m c main_arg4 (ix2 (blockRow (pt t) p) j)
  refine congrArg _ ?_
  funext a; apply Fin.ext
  match a with
  | ⟨0, _⟩ => show win0_4.index t (0 : Fin 2) * 4096 + 1 * p.val = 4096 * t.val + p.val; omega
  | ⟨1, _⟩ => show win0_4.index t (1 : Fin 2) * 64 + 1 * j.val = j.val; omega

/-- Block `t` of window 5 is entries `4096·t …` of argument 5. -/
theorem blk5_isBlock (c : Dev nD) (t : Fin cfg0.N) : IsBlock1 (args m c).valueNew (pt t) (iblk m c 5 t) := by
  intro p
  have e0 := idx1_5 t
  show V m c main_arg5 (((cfg0.win 5).blk t).view.emb (ix1 p)) = V m c main_arg5 (ix1 (blockRow (pt t) p))
  refine congrArg _ ?_
  funext a; apply Fin.ext
  match a with
  | ⟨0, _⟩ => show win0_5.index t (0 : Fin 1) * 4096 + 1 * p.val = 4096 * t.val + p.val; omega

/-- Block `t` of window 6 is entries `4096·t …` of argument 6. -/
theorem blk6_isBlock (c : Dev nD) (t : Fin cfg0.N) : IsBlock1 (args m c).valueOld (pt t) (iblk m c 6 t) := by
  intro p
  have e0 := idx1_6 t
  show V m c main_arg6 (((cfg0.win 6).blk t).view.emb (ix1 p)) = V m c main_arg6 (ix1 (blockRow (pt t) p))
  refine congrArg _ ?_
  funext a; apply Fin.ext
  match a with
  | ⟨0, _⟩ => show win0_6.index t (0 : Fin 1) * 4096 + 1 * p.val = 4096 * t.val + p.val; omega

/-- Block `t` of window 7 is entries `4096·t …` of argument 7. -/
theorem blk7_isBlock (c : Dev nD) (t : Fin cfg0.N) : IsBlock1 (args m c).adv (pt t) (iblk m c 7 t) := by
  intro p
  have e0 := idx1_7 t
  show V m c main_arg7 (((cfg0.win 7).blk t).view.emb (ix1 p)) = V m c main_arg7 (ix1 (blockRow (pt t) p))
  refine congrArg _ ?_
  funext a; apply Fin.ext
  match a with
  | ⟨0, _⟩ => show win0_7.index t (0 : Fin 1) * 4096 + 1 * p.val = 4096 * t.val + p.val; omega

/-- Block `t` of window 8 is entries `4096·t …` of argument 8. -/
theorem blk8_isBlock (c : Dev nD) (t : Fin cfg0.N) : IsBlock1 (args m c).ret (pt t) (iblk m c 8 t) := by
  intro p
  have e0 := idx1_8 t
  show V m c main_arg8 (((cfg0.win 8).blk t).view.emb (ix1 p)) = V m c main_arg8 (ix1 (blockRow (pt t) p))
  refine congrArg _ ?_
  funext a; apply Fin.ext
  match a with
  | ⟨0, _⟩ => show win0_8.index t (0 : Fin 1) * 4096 + 1 * p.val = 4096 * t.val + p.val; omega

/-- Block `t` of window 9 is entries `4096·t …` of argument 9. -/
theorem blk9_isBlock (c : Dev nD) (t : Fin cfg0.N) : IsBlock1 (args m c).weight (pt t) (iblk m c 9 t) := by
  intro p
  have e0 := idx1_9 t
  show V m c main_arg9 (((cfg0.win 9).blk t).view.emb (ix1 p)) = V m c main_arg9 (ix1 (blockRow (pt t) p))
  refine congrArg _ ?_
  funext a; apply Fin.ext
  match a with
  | ⟨0, _⟩ => show win0_9.index t (0 : Fin 1) * 4096 + 1 * p.val = 4096 * t.val + p.val; omega

end Cert.KernelIdeal.Terms

end
-- ==== Proof.Lanes.lean ====
/-
  The 128-lane rows the kernel carries its five totals in, read lane by lane.

  A one-hot lane mask is literally 0 or 1 at every lane; on the extended reals 0 * x = 0, 1 * x = x and
  x + 0 = x hold for every x, the infinite ones included, so packing five numbers into lanes 0..4 by the masks,
  and reading them back by a masked lane sum, is exact with no finiteness assumption.
-/
import proofs.«415962_j16527034155702_4_alg».proof.Proof.KernelTerms
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Terms

open Idealize.ShloMosaic Idealize.SL.Sem Cert.KernelIdeal Cert.KernelIdeal.Gen
open Idealize.ShloMosaic.ValueIdx

/-! ## Words: a one-hot comparison read as a real -/

/-- Comparing two small words for equality, widened and read as a real: 1 if equal, else 0. -/
theorem onehot_word (a b : Nat) (ha : a < 128) (hb : b < 128) :
    FloatOps.sitofp (F := Ideal) .f32 ((IntOp.cmpi .eq (BitVec.ofNat 32 a) (BitVec.ofNat 32 b)).setWidth 32)
      = if a = b then (1 : EReal) else 0 := by
  show (((((IntOp.cmpi .eq (BitVec.ofNat 32 a) (BitVec.ofNat 32 b)).setWidth 32).toInt : ℤ) : ℝ) : EReal) = _
  by_cases h : a = b
  · subst h
    rw [if_pos rfl]
    have e : IntOp.cmpi .eq (BitVec.ofNat 32 a) (BitVec.ofNat 32 a) = 1#1 := by simp [IntOp.cmpi]
    rw [e]
    have e2 : ((1#1 : BitVec 1).setWidth 32).toInt = 1 := by decide
    rw [e2]
    simp
  · rw [if_neg h]
    have hne : BitVec.ofNat 32 a ≠ BitVec.ofNat 32 b := by
      intro hc
      have := congrArg BitVec.toNat hc
      simp only [BitVec.toNat_ofNat] at this
      omega
    have hbeq : (BitVec.ofNat 32 a == BitVec.ofNat 32 b) = false := beq_eq_false_iff_ne.mpr hne
    have e : IntOp.cmpi .eq (BitVec.ofNat 32 a) (BitVec.ofNat 32 b) = 0#1 := by
      show BitVec.ofBool (BitVec.ofNat 32 a == BitVec.ofNat 32 b) = 0#1
      rw [hbeq]; rfl
    rw [e]
    have e2 : ((0#1 : BitVec 1).setWidth 32).toInt = 0 := by decide
    rw [e2]
    simp

/-! ## The lane masks, the zero row and the accumulation, lane by lane -/

/-- The lane counter at lane `l` is the word `l`. -/
theorem iota_lane (l : Fin 128) :
    iota .tc S1x128 32 [1] iota_S1x128_d1_w32 (ix2 (0 : Fin 1) l) = BitVec.ofNat 32 l.val :=
  iota_single_apply .tc S1x128 32 1 iota_S1x128_d1_w32 (ix2 (0 : Fin 1) l)

/-- A one-hot lane mask: the lane counter compared with the word `k`, as 0 or 1. -/
theorem onehot_lane (k : Nat) (hk : k < 128) (l : Fin 128) :
    (sitofp .f32 (extui 32 (cmpi .eq (iota .tc S1x128 32 [1] iota_S1x128_d1_w32) (broadcast S1x128 (BitVec.ofNat 32 k))) natLt_1_32)
      : FVec Ideal S1x128 .f32) (ix2 (0 : Fin 1) l) = if l.val = k then (1 : EReal) else 0 := by
  rw [sitofp_apply, extui_apply]
  show FloatOps.sitofp (F := Ideal) .f32 ((IntOp.cmpi .eq (iota .tc S1x128 32 [1] iota_S1x128_d1_w32 (ix2 (0 : Fin 1) l)) (BitVec.ofNat 32 k)).setWidth 32) = _
  rw [iota_lane]
  exact onehot_word l.val k l.isLt hk

theorem mask0_lane (l : Fin 128) : (k0_pay15 (F := Ideal)) (ix2 0 l) = if l.val = 0 then (1 : EReal) else 0 :=
  onehot_lane 0 (by omega) l
theorem mask1_lane (l : Fin 128) : (k0_pay16 (F := Ideal)) (ix2 0 l) = if l.val = 1 then (1 : EReal) else 0 :=
  onehot_lane 1 (by omega) l
theorem mask2_lane (l : Fin 128) : (k0_pay17 (F := Ideal)) (ix2 0 l) = if l.val = 2 then (1 : EReal) else 0 :=
  onehot_lane 2 (by omega) l
theorem mask3_lane (l : Fin 128) : (k0_pay18 (F := Ideal)) (ix2 0 l) = if l.val = 3 then (1 : EReal) else 0 :=
  onehot_lane 3 (by omega) l
theorem mask4_lane (l : Fin 128) : (k0_pay19 (F := Ideal)) (ix2 0 l) = if l.val = 4 then (1 : EReal) else 0 :=
  onehot_lane 4 (by omega) l

/-- The mask of lane `k` is 1 at lane `k` and 0 elsewhere. -/
theorem mask_lane (k : Fin 5) (l : Fin 128) :
    (match k with
      | 0 => k0_pay15 (F := Ideal) | 1 => k0_pay16 (F := Ideal) | 2 => k0_pay17 (F := Ideal)
      | 3 => k0_pay18 (F := Ideal) | 4 => k0_pay19 (F := Ideal)) (ix2 0 l)
      = if l.val = k.val then (1 : EReal) else 0 := by
  match k with
  | 0 => exact mask0_lane l
  | 1 => exact mask1_lane l
  | 2 => exact mask2_lane l
  | 3 => exact mask3_lane l
  | 4 => exact mask4_lane l

/-- The zero row is 0 at every lane. -/
theorem zeros_lane (l : Fin 128) : (k0_pay3 (F := Ideal)) (ix2 0 l) = 0 := by
  unfold k0_pay3
  exact Ideal.ofBits_zero_f32

/-- The accumulator after a block, lane by lane: what it held plus the block's row. -/
theorem accumulate_lane (part : FVec Ideal S1x128 .f32) (acc : Vec Ideal S1x128 .f32) (l : Fin 128) :
    k0_pay1 part acc (ix2 0 l) = acc (ix2 0 l) + part (ix2 0 l) := by
  unfold k0_pay1
  rw [shapeCast_self]
  rfl

/-! ## Sums over sublanes and lanes, the row-major cast and the lane broadcast, at an index -/

/-- The reduced index `t` of a lane sum with lane `k` put back is (t, k). -/
theorem lift_lane {m n : Nat} (h : (⟨2, ![m, n]⟩ : Shape).Reduces [1] (⟨1, ![m]⟩ : Shape)) (t : Fin m)
    (k : Fin ((⟨2, ![m, n]⟩ : Shape).size 1)) : h.lift (ix1 t) k = ix2 t (⟨k.val, k.isLt⟩ : Fin n) := by
  funext c; apply Fin.ext
  fin_cases c <;> rfl

/-- The reduced index `t` of a sublane sum with sublane `k` put back is (k, t). -/
theorem lift_sublane {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- The sum over the 128 lanes of a one-row vector, as a 1 x 1 vector, is the bare sum of its lanes. -/
theorem laneSum_apply (x : FVec Ideal S1x128 .f32) :
    shapeCast S1x1 (multiReduction (F := Ideal) .add [1] S1 x 0x00000000#32 reduces_S1x128_S1 (.inl rfl) rfl) shapeCasts_S1_S1x1
        (ix2 (0 : Fin 1) (0 : Fin 1))
      = ∑ l' : Fin 128, x (ix2 (0 : Fin 1) l') := by
  refine (shapeCast_a_1a_apply _ shapeCasts_S1_S1x1 (0 : Fin 1) (0 : Fin 1)).trans ?_
  refine (Ideal.multiReduction_add_single x 0x00000000#32 reduces_S1x128_S1 (.inl rfl) rfl (ix1 (0 : Fin 1))).trans ?_
  exact Finset.sum_congr rfl fun k _ => congrArg x (lift_lane reduces_S1x128_S1 (0 : Fin 1) k)

/-- The sum over the 32 sublanes of a 32 x 128 vector, as a one-row vector, at lane `l'`. -/
theorem sublaneSum_apply (w : FVec Ideal S32x128 .f32) (l' : Fin 128) :
    shapeCast S1x128 (multiReduction (F := Ideal) .add [0] S128 w 0x00000000#32 reduces_S32x128_S128 (.inl rfl) rfl) shapeCasts_S128_S1x128
        (ix2 (0 : Fin 1) l')
      = ∑ s : Fin 32, w (ix2 s l') := by
  refine (shapeCast_a_1a_apply _ shapeCasts_S128_S1x128 (0 : Fin 1) l').trans ?_
  refine (Ideal.multiReduction_add_single w 0x00000000#32 reduces_S32x128_S128 (.inl rfl) rfl (ix1 l')).trans ?_
  exact Finset.sum_congr rfl fun k _ => congrArg w (lift_sublane reduces_S32x128_S128 l' k)

/-- A 32 x 128 vector summed over its sublanes and then over its lanes. -/
theorem twoStage_apply (w : FVec Ideal S32x128 .f32) :
    shapeCast S1x1 (multiReduction (F := Ideal) .add [1] S1
        (shapeCast S1x128 (multiReduction (F := Ideal) .add [0] S128 w 0x00000000#32 reduces_S32x128_S128 (.inl rfl) rfl) shapeCasts_S128_S1x128)
        0x00000000#32 reduces_S1x128_S1 (.inl rfl) rfl) shapeCasts_S1_S1x1 (ix2 (0 : Fin 1) (0 : Fin 1))
      = ∑ l' : Fin 128, ∑ s : Fin 32, w (ix2 s l') := by
  refine (laneSum_apply _).trans ?_
  exact Finset.sum_congr rfl fun l' _ => sublaneSum_apply w l'

/-- The row-major cast of a 4096-vector to 32 x 128 reads entry 128·s + l' at (s, l'). -/
theorem cast32x128_apply (v : FVec Ideal S4096 .f32) (s : Fin 32) (l' : Fin 128) :
    shapeCast S32x128 v shapeCasts_S4096_S32x128 (ix2 s l') = v (ix1 ⟨128 * s.val + l'.val, by omega⟩) := by
  refine shapeCast_apply v shapeCasts_S4096_S32x128 (ix2 s l') (ix1 ⟨128 * s.val + l'.val, by omega⟩) ?_
  rw [Shape.rowMajor_val_one, Shape.rowMajor_val_two]
  show 128 * s.val + l'.val = s.val * 128 + l'.val
  omega

/-- A 1 x 1 vector broadcast along the lanes reads its one entry. -/
theorem bcastLane_apply (x : FVec Ideal S1x1 .f32) (l : Fin 128) :
    broadcastTo S1x128 x broadcasts_S1x1_S1x128 (ix2 (0 : Fin 1) l) = x (ix2 (0 : Fin 1) (0 : Fin 1)) := by
  refine broadcastTo_apply x broadcasts_S1x1_S1x128 (ix2 (0 : Fin 1) l) (ix2 (0 : Fin 1) (0 : Fin 1)) ?_
  intro a
  match a with
  | ⟨0, _⟩ => rfl
  | ⟨1, _⟩ => rfl

/-! ## The mask algebra on the extended reals -/

/-- Five numbers spread over lanes 0..4 by the one-hot masks: lane by lane it is the packed row.
    Only 0 * x = 0, 1 * x = x and x + 0 = x are used, which hold for infinite x too. -/
theorem pack_of_masks (w : Fin 5 → EReal) (l : Fin 128) :
    (if l.val = 0 then (1 : EReal) else 0) * w 0 + (if l.val = 1 then (1 : EReal) else 0) * w 1
        + (if l.val = 2 then (1 : EReal) else 0) * w 2 + (if l.val = 3 then (1 : EReal) else 0) * w 3
        + (if l.val = 4 then (1 : EReal) else 0) * w 4
      = Cert.Losses.pack w l := by
  unfold Cert.Losses.pack
  by_cases h0 : l.val = 0
  · simp [h0]
  by_cases h1 : l.val = 1
  · simp [h1]
  by_cases h2 : l.val = 2
  · simp [h2]
  by_cases h3 : l.val = 3
  · simp [h3]
  by_cases h4 : l.val = 4
  · simp [h4]
  simp [h0, h1, h2, h3, h4]

/-- The packed row read back through the mask of lane `k`: only lane `k` survives the lane sum. -/
theorem sum_pack_mask (v : Fin 5 → EReal) (k : Fin 5) :
    ∑ l' : Fin 128, Cert.Losses.pack v l' * (if l'.val = k.val then (1 : EReal) else 0) = v k := by
  rw [Finset.sum_eq_single (⟨k.val, by omega⟩ : Fin 128)]
  · rw [if_pos rfl, mul_one]
    unfold Cert.Losses.pack
    match k with
    | 0 => rfl
    | 1 => rfl
    | 2 => rfl
    | 3 => rfl
    | 4 => rfl
  · intro b _ hb
    have : ¬ b.val = k.val := fun h => hb (Fin.ext h)
    rw [if_neg this, mul_zero]
  · intro h; exact absurd (Finset.mem_univ _) h

/-! ## The block's row of five totals, lane by lane -/

/-- The block's row: the two 1 x 1 totals and the three two-stage sums (sublanes, then lanes) in lanes 0..4. -/
theorem pack_lane (v60 v67 : FVec Ideal S4096 .f32) (v73 v79 : FVec Ideal S1x1 .f32) (v81 : FVec Ideal S32x128 .f32) (l : Fin 128) :
    k0_pay20 v60 v67 v73 v79 v81 (ix2 0 l)
      = Cert.Losses.pack ![v73 (ix2 0 0), v79 (ix2 0 0), ∑ l' : Fin 128, ∑ s : Fin 32, v81 (ix2 s l'),
          ∑ l' : Fin 128, ∑ s : Fin 32, v60 (ix1 ⟨128 * s.val + l'.val, by omega⟩),
          ∑ l' : Fin 128, ∑ s : Fin 32, v67 (ix1 ⟨128 * s.val + l'.val, by omega⟩)] l := by
  unfold k0_pay20
  simp only [addf_apply, mulf_apply]
  rw [mask0_lane, mask1_lane, mask2_lane, mask3_lane, mask4_lane]
  rw [bcastLane_apply, bcastLane_apply, bcastLane_apply, bcastLane_apply, bcastLane_apply]
  rw [twoStage_apply, twoStage_apply, twoStage_apply]
  simp only [cast32x128_apply]
  exact pack_of_masks ![v73 (ix2 0 0), v79 (ix2 0 0), ∑ l' : Fin 128, ∑ s : Fin 32, v81 (ix2 s l'),
          ∑ l' : Fin 128, ∑ s : Fin 32, v60 (ix1 ⟨128 * s.val + l'.val, by omega⟩),
          ∑ l' : Fin 128, ∑ s : Fin 32, v67 (ix1 ⟨128 * s.val + l'.val, by omega⟩)] l

/-! ## The epilogue's row, lane by lane -/

/-- A row that is the packed `v`, read back through the mask of lane `k` by a lane sum, gives `v k`. -/
theorem readback_lane (acc : Vec Ideal S1x128 .f32) (v : Fin 5 → EReal)
    (hacc : ∀ l : Fin 128, acc (ix2 0 l) = Cert.Losses.pack v l) (m : FVec Ideal S1x128 .f32) (k : Fin 5)
    (hm : ∀ l : Fin 128, m (ix2 0 l) = if l.val = k.val then (1 : EReal) else 0) :
    shapeCast S1x1 (multiReduction (F := Ideal) .add [1] S1 (mulf (shapeCast S1x128 acc shapeCasts_S1x128_S1x128) m)
        0x00000000#32 reduces_S1x128_S1 (.inl rfl) rfl) shapeCasts_S1_S1x1 (ix2 (0 : Fin 1) (0 : Fin 1)) = v k := by
  refine (laneSum_apply _).trans ?_
  rw [shapeCast_self]
  refine Eq.trans (Finset.sum_congr rfl fun l' _ => ?_) (sum_pack_mask v k)
  show acc (ix2 0 l') * m (ix2 0 l') = _
  rw [hacc, hm]

/-- The epilogue's row: the five accumulated totals read back, scaled, and packed again. -/
theorem finalize_lane (acc : Vec Ideal S1x128 .f32) (v : Fin 5 → EReal)
    (hacc : ∀ l : Fin 128, acc (ix2 0 l) = Cert.Losses.pack v l) (l : Fin 128) :
    finalized acc (ix2 0 l) = Cert.Losses.pack (Cert.Losses.scaled v) l := by
  unfold finalized k0_pay2
  simp only [addf_apply, mulf_apply]
  rw [bcastLane_apply, bcastLane_apply, bcastLane_apply, bcastLane_apply, bcastLane_apply]
  simp only [divf_apply, subf_apply, mulf_apply, broadcast_apply]
  rw [readback_lane acc v hacc _ 0 mask0_lane, readback_lane acc v hacc _ 1 mask1_lane,
    readback_lane acc v hacc _ 2 mask2_lane, readback_lane acc v hacc _ 3 mask3_lane,
    readback_lane acc v hacc _ 4 mask4_lane]
  rw [mask0_lane, mask1_lane, mask2_lane, mask3_lane, mask4_lane]
  exact pack_of_masks (Cert.Losses.scaled v) l

end Cert.KernelIdeal.Terms

end
-- ==== Proof.Sums.lean ====
/-
  The bookkeeping of the batch totals, as pure algebra over the extended reals.

  The 64 blocks of 4096 rows tile the batch of 262144 rows, and inside a block the 128 lanes by 32 sublanes
  (row 128 s + l at sublane s, lane l) tile the block's 4096 rows; so the running sum of the block totals,
  after the last block, is the batch total. The extended reals are a commutative monoid under addition, so the
  sums are regrouped and reordered freely; nothing here needs a summand to be finite.

  The epilogue divides by the batch size 262144 = 2^18, a nonzero real: dividing by it is multiplying by its
  reciprocal, so a sign or a constant factor moves through the division.

  Five totals travel in lanes 0..4 of a 128-lane row whose other lanes are zero: such rows add lane by lane.
-/
import proofs.«415962_j16527034155702_4_alg».proof.Proof.Blocks
import Idealize.ShloMosaic.PureOps.Ideal.Laws
import Mathlib.Algebra.BigOperators.Fin
import Mathlib.Algebra.BigOperators.Group.Finset.Basic
import Mathlib.Algebra.BigOperators.Group.Finset.Sigma
import Mathlib.Logic.Equiv.Fin.Basic
import Mathlib.Data.EReal.Inv

noncomputable section

namespace Cert.Losses

open Idealize.ShloMosaic Idealize.ShloMosaic.ValueIdx

/-! ## Rows of a block -/

/-- Inside the batch, the extension by zero reads the row quantity itself. -/
theorem ext_blockRow (f : Fin 262144 → EReal) (t : Fin 64) (p : Fin 4096) :
    ext f (4096 * t.val + p.val) = f (blockRow t p) := by
  have h : 4096 * t.val + p.val < 262144 := by omega
  unfold ext
  rw [dif_pos h]
  rfl

/-! ## Tiling -/

/-- An `n`-by-`m` tile read lane-major: (l, s) ↦ n s + l runs through 0 … m n − 1 once. -/
theorem sum_tile (m n : ℕ) (g : ℕ → EReal) :
    ∑ l : Fin n, ∑ s : Fin m, g (n * s.val + l.val) = ∑ i ∈ Finset.range (m * n), g i := by
  rw [Finset.sum_range, ← finProdFinEquiv.sum_comp, Fintype.sum_prod_type, Finset.sum_comm]
  refine Finset.sum_congr rfl fun l _ => Finset.sum_congr rfl fun s _ => ?_
  rw [finProdFinEquiv_apply_val, add_comm]

/-- A block's total is the sum of its 4096 consecutive rows. -/
theorem blockSum_eq_range (f : Fin 262144 → EReal) (t : ℕ) :
    blockSum f t = ∑ i ∈ Finset.range (32 * 128), ext f (4096 * t + i) :=
  sum_tile 32 128 fun i => ext f (4096 * t + i)

/-- After block `n` the running sum is the sum of the rows below 4096 (n + 1). -/
theorem runSum_eq_range (f : Fin 262144 → EReal) (n : ℕ) :
    runSum f n = ∑ i ∈ Finset.range (4096 * (n + 1)), ext f i := by
  have h4096 : 32 * 128 = 4096 := by norm_num
  induction n with
  | zero =>
    show blockSum f 0 = ∑ i ∈ Finset.range 4096, ext f i
    rw [blockSum_eq_range, h4096]
    refine Finset.sum_congr rfl fun i _ => ?_
    rw [Nat.mul_zero, Nat.zero_add]
  | succ n ih =>
    show runSum f n + blockSum f (n + 1) = _
    rw [ih, blockSum_eq_range, h4096, Nat.mul_succ 4096 (n + 1), Finset.sum_range_add]

/-- The 64 blocks tile the batch. -/
theorem runSum_last (f : Fin 262144 → EReal) : runSum f 63 = total f := by
  have h : 4096 * (63 + 1) = 262144 := by norm_num
  rw [runSum_eq_range, h, Finset.sum_range]
  unfold total
  refine Finset.sum_congr rfl fun r _ => ?_
  unfold ext
  rw [dif_pos r.isLt]

/-! ## The batch size and the epilogue -/

/-- The word 0x48800000 denotes 2^18 = 262144. -/
theorem batchSize_eq : batchSize = ((262144 : ℝ) : EReal) := by
  unfold batchSize
  simp [Ideal.ofBits, Ideal.ieee, -EReal.coe_mul]; norm_num

/-- Negating or halving a total and then dividing by the batch size is dividing first. -/
theorem scaled_total (x : Args) (k : Fin 5) :
    scaled (fun k => total (rowQuantity x k)) k = loss x k := by
  have hne : (262144 : ℝ) ≠ 0 := by norm_num
  match k with
  | 0 =>
    show Ideal.div (Ideal.ofBits .f32 0x00000000#32 - total (policyRow x)) batchSize
      = -(Ideal.div (total (policyRow x)) batchSize)
    rw [batchSize_eq, Ideal.ofBits_zero_f32, zero_sub, Ideal.div_coe hne, Ideal.div_coe hne, EReal.neg_mul]
  | 1 =>
    show Ideal.div (halfWord * total (valueRow x)) batchSize
      = halfWord * Ideal.div (total (valueRow x)) batchSize
    rw [batchSize_eq, Ideal.div_coe hne, Ideal.div_coe hne, mul_assoc]
  | 2 => rfl
  | 3 => rfl
  | 4 => rfl

/-! ## Packed rows -/

/-- Packed rows add lane by lane. -/
theorem pack_add (u v : Fin 5 → EReal) (l : Fin 128) :
    pack u l + pack v l = pack (fun k => u k + v k) l := by
  unfold pack
  split_ifs <;> first | rfl | exact add_zero 0

theorem pack_zero_add (v : Fin 5 → EReal) (l : Fin 128) : (0 : EReal) + pack v l = pack v l :=
  zero_add _

theorem pack_congr {u v : Fin 5 → EReal} (h : ∀ k, u k = v k) (l : Fin 128) : pack u l = pack v l := by
  unfold pack
  simp only [h]

end Cert.Losses

end
-- ==== Proof.RatioRows.lean ====
/-
  The kernel body's per-row quantities are the specification's. For a block whose loaded rows are rows
  4096·t … of the ten arrays: the two column sums are the log-densities of the row under the new and the old
  Gaussian, their difference exponentiated is the probability ratio, the old-minus-new difference is the
  log-density gap, the compare bit widened and converted is the clip indicator, and the block total of the
  weighted dual-clipped surrogate (4096 rows laid out 32 x 128, summed over the 32 sublanes and then over
  the 128 lanes) is the specification's block sum, which adds in that same order.
-/
import proofs.«415962_j16527034155702_4_alg».proof.Proof.KernelTerms
import Idealize.ShloMosaic.Lib.ValueIdx
import Idealize.ShloMosaic.Lib.ValueLayout
import Idealize.ShloMosaic.PureOps.Ideal.Laws

noncomputable section

namespace Cert.KernelIdeal.Terms

open Idealize.ShloMosaic Idealize.SL.Sem Cert.KernelIdeal Cert.KernelIdeal.Gen Idealize.ShloMosaic.ValueIdx
open Cert.Losses

/-! ## Sums read at an index -/

/-- The index a sum over the 64 columns inserts into row `p`: (p, k). -/
private theorem lift_col (p : Fin 4096) (k : Fin 64) :
    reduces_S4096x64_S4096.lift (ix1 p) k = ix2 p k := by
  funext a
  match a with
  | ⟨0, _⟩ => rfl
  | ⟨1, _⟩ => rfl

/-- A sum over the columns of a 4096 x 64 block, read at row `p`. -/
private theorem colSum_apply (v : FVec Ideal S4096x64 .f32) (p : Fin 4096) :
    multiReduction (F := Ideal) .add [1] S4096 v 0x00000000#32 reduces_S4096x64_S4096 (.inl rfl) rfl (ix1 p)
      = ∑ k : Fin 64, v (ix2 p k) := by
  refine (Ideal.multiReduction_add_single v 0x00000000#32 reduces_S4096x64_S4096 (.inl rfl) rfl (ix1 p)).trans ?_
  exact Finset.sum_congr rfl (fun k _ => congrArg v (lift_col p k))

/-- The index a sum over the 32 sublanes inserts into lane `l`: (s, l). -/
private theorem lift_sublane (l : Fin 128) (s : Fin 32) :
    reduces_S32x128_S128.lift (ix1 l) s = ix2 s l := by
  funext a
  match a with
  | ⟨0, _⟩ => rfl
  | ⟨1, _⟩ => rfl

/-- The index a sum over the 128 lanes inserts into the one row: (0, l). -/
private theorem lift_lane (l : Fin 128) :
    reduces_S1x128_S1.lift (ix1 (0 : Fin 1)) l = ix2 (0 : Fin 1) l := by
  funext a
  match a with
  | ⟨0, _⟩ => rfl
  | ⟨1, _⟩ => rfl

/-- Row 128·s + l of a 4096-vector sits at sublane `s`, lane `l` of its 32 x 128 layout. -/
private theorem sublane_lane_apply (v : FVec Ideal S4096 .f32) (s : Fin 32) (l : Fin 128) :
    shapeCast S32x128 v shapeCasts_S4096_S32x128 (ix2 s l)
      = v (ix1 (⟨128 * s.val + l.val, by omega⟩ : Fin 4096)) :=
  shapeCast_apply v shapeCasts_S4096_S32x128 _ _ (by
    rw [Shape.rowMajor_val_one, Shape.rowMajor_val_two]
    show 128 * s.val + l.val = s.val * 128 + l.val
    omega)

/-- The two-stage total of a 4096-vector — laid out 32 x 128, summed over the sublanes, then over the lanes — is the
    sum over the lanes of the sums over the sublanes of its entries 128·s + l. -/
private theorem blockTotal_apply (v : FVec Ideal S4096 .f32) :
    shapeCast S1x1
        (multiReduction (F := Ideal) .add [1] S1
          (shapeCast S1x128
            (multiReduction (F := Ideal) .add [0] S128 (shapeCast S32x128 v shapeCasts_S4096_S32x128) 0x00000000#32
              reduces_S32x128_S128 (.inl rfl) rfl)
            shapeCasts_S128_S1x128)
          0x00000000#32 reduces_S1x128_S1 (.inl rfl) rfl)
        shapeCasts_S1_S1x1 (ix2 (0 : Fin 1) (0 : Fin 1))
      = ∑ l : Fin 128, ∑ s : Fin 32, v (ix1 (⟨128 * s.val + l.val, by omega⟩ : Fin 4096)) := by
  refine (shapeCast_a_1a_apply _ shapeCasts_S1_S1x1 (0 : Fin 1) (0 : Fin 1)).trans ?_
  refine (Ideal.multiReduction_add_single _ 0x00000000#32 reduces_S1x128_S1 (.inl rfl) rfl (ix1 (0 : Fin 1))).trans ?_
  refine Finset.sum_congr rfl (fun l _ => ?_)
  rw [lift_lane l]
  refine (shapeCast_a_1a_apply _ shapeCasts_S128_S1x128 (0 : Fin 1) l).trans ?_
  refine (Ideal.multiReduction_add_single _ 0x00000000#32 reduces_S32x128_S128 (.inl rfl) rfl (ix1 l)).trans ?_
  refine Finset.sum_congr rfl (fun s _ => ?_)
  rw [lift_sublane l s]
  exact sublane_lane_apply v s l

/-- A row quantity read at row 128·s + l of block `t`. -/
private theorem ext_blockRow (f : Fin 262144 → EReal) (t : Fin 64) (s : Fin 32) (l : Fin 128) :
    ext f (4096 * t.val + (128 * s.val + l.val))
      = f (blockRow t (⟨128 * s.val + l.val, by omega⟩ : Fin 4096)) := by
  unfold ext
  rw [dif_pos (show 4096 * t.val + (128 * s.val + l.val) < 262144 by omega)]
  rfl

/-! ## The log-density column sum -/

/-- The first column sum at row `p`: the Gaussian log-density's 64 terms, in the printed association. -/
private theorem pay4_apply (mu sigma act : Vec Ideal S4096x64 .f32) (p : Fin 4096) :
    k0_pay4 mu sigma act (ix1 p)
      = ∑ j : Fin 64, (negHalf * Ideal.div (act (ix2 p j) - mu (ix2 p j)) (sigma (ix2 p j))
          * Ideal.div (act (ix2 p j) - mu (ix2 p j)) (sigma (ix2 p j))
        - Ideal.log (sigma (ix2 p j)) - halfLog2Pi) := by
  unfold k0_pay4
  refine (colSum_apply _ p).trans ?_
  rfl

/-- The second column sum is the same function of its three blocks. -/
private theorem pay5_eq_pay4 (mu sigma act : Vec Ideal S4096x64 .f32) :
    k0_pay5 mu sigma act = k0_pay4 mu sigma act := rfl

/-- On a block that is rows 4096·t … of the arrays the column sum is the row's log-density. -/
private theorem pay4_row (act mu sigma : Mat) (t : Fin 64) (xm xs xa : Vec Ideal S4096x64 .f32)
    (hm : IsBlock2 mu t xm) (hs : IsBlock2 sigma t xs) (ha : IsBlock2 act t xa) (p : Fin 4096) :
    k0_pay4 xm xs xa (ix1 p) = logp act mu sigma (blockRow t p) := by
  rw [pay4_apply]
  unfold logp
  refine Finset.sum_congr rfl (fun j _ => ?_)
  rw [hm p j, hs p j, ha p j]

variable (A : Args) (t : Fin 64)
variable (x0 x1 x2 x3 x4 : Vec Ideal S4096x64 .f32) (x7 x9 : Vec Ideal S4096 .f32)

/-! ## The row facts -/

theorem logpNew_row (h0 : IsBlock2 A.muNew t x0) (h1 : IsBlock2 A.sigmaNew t x1) (h4 : IsBlock2 A.action t x4)
    (p : Fin 4096) : k0_pay4 x0 x1 x4 (ix1 p) = logp A.action A.muNew A.sigmaNew (blockRow t p) :=
  pay4_row A.action A.muNew A.sigmaNew t x0 x1 x4 h0 h1 h4 p

theorem logpOld_row (h2 : IsBlock2 A.muOld t x2) (h3 : IsBlock2 A.sigmaOld t x3) (h4 : IsBlock2 A.action t x4)
    (p : Fin 4096) : k0_pay5 x2 x3 x4 (ix1 p) = logp A.action A.muOld A.sigmaOld (blockRow t p) := by
  rw [pay5_eq_pay4]
  exact pay4_row A.action A.muOld A.sigmaOld t x2 x3 x4 h2 h3 h4 p

theorem ratio_row (h0 : IsBlock2 A.muNew t x0) (h1 : IsBlock2 A.sigmaNew t x1) (h2 : IsBlock2 A.muOld t x2)
    (h3 : IsBlock2 A.sigmaOld t x3) (h4 : IsBlock2 A.action t x4) (p : Fin 4096) :
    k0_pay6 x0 x1 x2 x3 x4 (ix1 p) = ratio A (blockRow t p) := by
  unfold k0_pay6
  show Ideal.exp (k0_pay4 x0 x1 x4 (ix1 p) - k0_pay5 x2 x3 x4 (ix1 p)) = _
  rw [logpNew_row A t x0 x1 x4 h0 h1 h4 p, logpOld_row A t x2 x3 x4 h2 h3 h4 p]
  rfl

theorem klVec_row (h0 : IsBlock2 A.muNew t x0) (h1 : IsBlock2 A.sigmaNew t x1) (h2 : IsBlock2 A.muOld t x2)
    (h3 : IsBlock2 A.sigmaOld t x3) (h4 : IsBlock2 A.action t x4) (p : Fin 4096) :
    klVec x0 x1 x2 x3 x4 (ix1 p) = klRow A (blockRow t p) := by
  unfold klVec k0_pay10
  show k0_pay5 x2 x3 x4 (ix1 p) - k0_pay4 x0 x1 x4 (ix1 p) = _
  rw [logpNew_row A t x0 x1 x4 h0 h1 h4 p, logpOld_row A t x2 x3 x4 h2 h3 h4 p]
  rfl

/-- A one-bit word widened to 32 bits and read as a signed integer is the bit read as an unsigned one: 0 or 1. -/
private theorem bit_widened (b : BitVec 1) :
    FloatOps.sitofp (F := Ideal) .f32 (b.setWidth 32) = FloatOps.uitofp (F := Ideal) .f32 b := by
  rcases BitVec.eq_zero_or_eq_one b with rfl | rfl
  · show (((BitVec.setWidth 32 (0#1)).toInt : ℝ) : EReal) = ((((0#1 : BitVec 1)).toNat : ℝ) : EReal)
    have e : (BitVec.setWidth 32 (0#1)).toInt = (((0#1 : BitVec 1)).toNat : ℤ) := by decide
    rw [e]
    norm_cast
  · show (((BitVec.setWidth 32 (1#1)).toInt : ℝ) : EReal) = ((((1#1 : BitVec 1)).toNat : ℝ) : EReal)
    have e : (BitVec.setWidth 32 (1#1)).toInt = (((1#1 : BitVec 1)).toNat : ℤ) := by decide
    rw [e]
    norm_cast

theorem cfVec_row (h0 : IsBlock2 A.muNew t x0) (h1 : IsBlock2 A.sigmaNew t x1) (h2 : IsBlock2 A.muOld t x2)
    (h3 : IsBlock2 A.sigmaOld t x3) (h4 : IsBlock2 A.action t x4) (p : Fin 4096) :
    cfVec x0 x1 x2 x3 x4 (ix1 p) = clipFracRow A (blockRow t p) := by
  unfold cfVec k0_pay11
  show FloatOps.sitofp (F := Ideal) .f32
      ((FloatOps.cmpf (F := Ideal) .ogt
        (FloatOps.absf (F := Ideal) (φ := .f32) (k0_pay6 x0 x1 x2 x3 x4 (ix1 p) - Ideal.ofBits .f32 0x3F800000#32))
        (Ideal.ofBits .f32 0x3E4CCCCD#32)).setWidth 32) = _
  rw [ratio_row A t x0 x1 x2 x3 x4 h0 h1 h2 h3 h4 p, bit_widened]
  rfl

theorem polTot_block (h0 : IsBlock2 A.muNew t x0) (h1 : IsBlock2 A.sigmaNew t x1) (h2 : IsBlock2 A.muOld t x2)
    (h3 : IsBlock2 A.sigmaOld t x3) (h4 : IsBlock2 A.action t x4) (h7 : IsBlock1 A.adv t x7)
    (h9 : IsBlock1 A.weight t x9) :
    polTot x0 x1 x2 x3 x4 x7 x9 (ix2 0 0) = blockSum (policyRow A) t.val := by
  unfold polTot k0_pay12
  refine (blockTotal_apply _).trans ?_
  unfold blockSum
  refine Finset.sum_congr rfl (fun l _ => Finset.sum_congr rfl (fun s _ => ?_))
  rw [ext_blockRow]
  unfold k0_pay7 k0_pay8 k0_pay9
  show max (min (k0_pay6 x0 x1 x2 x3 x4 (ix1 _) * x7 (ix1 _))
        (min (Ideal.ofBits .f32 0x3F99999A#32) (max (Ideal.ofBits .f32 0x3F4CCCCD#32) (k0_pay6 x0 x1 x2 x3 x4 (ix1 _)))
          * x7 (ix1 _)))
      (Ideal.ofBits .f32 0x40A00000#32 * x7 (ix1 _)) * x9 (ix1 _) = _
  rw [ratio_row A t x0 x1 x2 x3 x4 h0 h1 h2 h3 h4, h7, h9]
  rfl

end Cert.KernelIdeal.Terms

end
-- ==== Proof.ValueEntropyRows.lean ====
/-
  The value and entropy row quantities of a block, and their block totals.

  A block's 4096 row quantities are laid out 32 sublanes by 128 lanes (row 128·s + l at (s, l)), summed over
  the sublanes and then over the lanes. The value quantity of row p is the larger of the two squared errors
  times the weight; the entropy quantity is the sum over the 64 columns of the constant plus the log of the
  deviation, times the weight. Both are the specification's row quantities at row 4096·t + p.
-/
import proofs.«415962_j16527034155702_4_alg».proof.Proof.KernelTerms
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Terms

open Idealize.ShloMosaic Idealize.SL.Sem Cert.KernelIdeal Cert.KernelIdeal.Gen
open Idealize.ShloMosaic.ValueIdx
open Cert.Losses

/-! ## The reductions and the layout change read at an index -/

/-- The inserted index of a sum over the 64 columns is (p, k). -/
private theorem lift_cols (h : S4096x64.Reduces [1] S4096) (p : Fin 4096) (k : Fin 64) :
    h.lift (ix1 p) k = ix2 p k := by
  funext a; match a with | ⟨0, _⟩ => rfl | ⟨1, _⟩ => rfl

/-- A sum over the 64 columns at row p. -/
private theorem sum_cols (src : FVec Ideal S4096x64 .f32) (h : S4096x64.Reduces [1] S4096)
    (hφ : FKind.Formats .f32) (hacc : (0x00000000#32 : BitVec 32) = FKind.add.neutral .f32 hφ) (p : Fin 4096) :
    multiReduction .add [1] S4096 src 0x00000000#32 h hφ hacc (ix1 p) = ∑ k : Fin 64, src (ix2 p k) := by
  refine (Ideal.multiReduction_add_single src 0x00000000#32 h hφ hacc (ix1 p)).trans ?_
  exact Finset.sum_congr rfl fun k _ => congrArg src (lift_cols h p k)

/-- The inserted index of a sum over the 32 sublanes is (s, l). -/
private theorem lift_sub (h : S32x128.Reduces [0] S128) (l : Fin 128) (s : Fin 32) :
    h.lift (ix1 l) s = ix2 s l := by
  funext a; match a with | ⟨0, _⟩ => rfl | ⟨1, _⟩ => rfl

/-- A sum over the 32 sublanes at lane l. -/
private theorem sum_sub (src : FVec Ideal S32x128 .f32) (h : S32x128.Reduces [0] S128)
    (hφ : FKind.Formats .f32) (hacc : (0x00000000#32 : BitVec 32) = FKind.add.neutral .f32 hφ) (l : Fin 128) :
    multiReduction .add [0] S128 src 0x00000000#32 h hφ hacc (ix1 l) = ∑ s : Fin 32, src (ix2 s l) := by
  refine (Ideal.multiReduction_add_single src 0x00000000#32 h hφ hacc (ix1 l)).trans ?_
  exact Finset.sum_congr rfl fun s _ => congrArg src (lift_sub h l s)

/-- The inserted index of a sum over the 128 lanes of a one-row vector is (0, l). -/
private theorem lift_lanes (h : S1x128.Reduces [1] S1) (u : Fin 1) (l : Fin 128) :
    h.lift (ix1 u) l = ix2 u l := by
  funext a; match a with | ⟨0, _⟩ => rfl | ⟨1, _⟩ => rfl

/-- A sum over the 128 lanes of a one-row vector. -/
private theorem sum_lanes (src : FVec Ideal S1x128 .f32) (h : S1x128.Reduces [1] S1)
    (hφ : FKind.Formats .f32) (hacc : (0x00000000#32 : BitVec 32) = FKind.add.neutral .f32 hφ) (u : Fin 1) :
    multiReduction .add [1] S1 src 0x00000000#32 h hφ hacc (ix1 u) = ∑ l : Fin 128, src (ix2 u l) := by
  refine (Ideal.multiReduction_add_single src 0x00000000#32 h hφ hacc (ix1 u)).trans ?_
  exact Finset.sum_congr rfl fun l _ => congrArg src (lift_lanes h u l)

/-- A 4096-vector laid out 32 x 128 row-major reads, at (s, l), entry 128·s + l. -/
private theorem cast_rows {α : Type} (x : S4096.Idx → α) (h : S4096.ShapeCasts S32x128) (s : Fin 32) (l : Fin 128) :
    shapeCast S32x128 x h (ix2 s l) = x (ix1 ⟨128 * s.val + l.val, by omega⟩) :=
  shapeCast_apply x h _ _ (by
    rw [Shape.rowMajor_val_one, Shape.rowMajor_val_two]
    show 128 * s.val + l.val = s.val * 128 + l.val
    omega)

/-- A row quantity read at row 128·s + l of block t. -/
private theorem ext_blockRow (f : Fin 262144 → EReal) (t : Fin 64) (s : Fin 32) (l : Fin 128) :
    ext f (4096 * t.val + (128 * s.val + l.val)) = f (blockRow t ⟨128 * s.val + l.val, by omega⟩) := by
  unfold ext
  rw [dif_pos (by omega)]
  rfl

variable (A : Args) (t : Fin 64)
variable (x1 : Vec Ideal S4096x64 .f32) (x5 x6 x8 x9 : Vec Ideal S4096 .f32)

/-! ## The entropy rows -/

theorem entBlk_row (h1 : IsBlock2 A.sigmaNew t x1) (h9 : IsBlock1 A.weight t x9) (s : Fin 32) (l : Fin 128) :
    entBlk x1 x9 (ix2 s l) = entropyRow A (blockRow t ⟨128 * s.val + l.val, by omega⟩) := by
  unfold entBlk k0_pay14
  refine (cast_rows _ _ s l).trans ?_
  refine (mulf_apply _ _ _).trans ?_
  unfold entropyRow
  rw [← h9 ⟨128 * s.val + l.val, by omega⟩]
  refine congrArg (· * _) ?_
  refine (sum_cols _ _ _ _ _).trans ?_
  refine Finset.sum_congr rfl fun j _ => ?_
  rw [← h1 ⟨128 * s.val + l.val, by omega⟩ j]
  rfl

theorem entBlk_block (h1 : IsBlock2 A.sigmaNew t x1) (h9 : IsBlock1 A.weight t x9) :
    (∑ l : Fin 128, ∑ s : Fin 32, entBlk x1 x9 (ix2 s l)) = blockSum (entropyRow A) t.val := by
  unfold blockSum
  refine Finset.sum_congr rfl fun l _ => Finset.sum_congr rfl fun s _ => ?_
  rw [ext_blockRow]
  exact entBlk_row A t x1 x9 h1 h9 s l

/-! ## The value total -/

theorem valTot_block (h5 : IsBlock1 A.valueNew t x5) (h6 : IsBlock1 A.valueOld t x6) (h8 : IsBlock1 A.ret t x8)
    (h9 : IsBlock1 A.weight t x9) : valTot x5 x6 x8 x9 (ix2 0 0) = blockSum (valueRow A) t.val := by
  unfold valTot k0_pay13
  refine (shapeCast_a_1a_apply _ _ 0 0).trans ?_
  refine (sum_lanes _ _ _ _ 0).trans ?_
  unfold blockSum
  refine Finset.sum_congr rfl fun l _ => ?_
  refine (shapeCast_a_1a_apply _ _ 0 l).trans ?_
  refine (sum_sub _ _ _ _ l).trans ?_
  refine Finset.sum_congr rfl fun s _ => ?_
  refine (cast_rows _ _ s l).trans ?_
  rw [ext_blockRow]
  unfold valueRow valueClip
  rw [← h5 ⟨128 * s.val + l.val, by omega⟩, ← h6 ⟨128 * s.val + l.val, by omega⟩,
    ← h8 ⟨128 * s.val + l.val, by omega⟩, ← h9 ⟨128 * s.val + l.val, by omega⟩]
  rfl

end Cert.KernelIdeal.Terms

end
-- ==== Proof.BlockTotals.lean ====
/-
  One grid point's contribution. The row the body adds to the accumulator is m₀·s₀ + m₁·s₁ + m₂·s₂ + m₃·s₃ + m₄·s₄
  with m_k the indicator of lane k and s_k the block's total of the k-th row quantity, each total taken sublanes
  first and lanes second over the 4096 rows laid out 32 x 128. On the extended reals 1·x = x, 0·x = 0 and
  x + 0 = x hold at the infinities too, so lane k of that row is exactly s_k and the other lanes are 0; and s_k
  is the specification's block total because the loaded blocks are rows 4096·t … of the argument arrays.
-/
import proofs.«415962_j16527034155702_4_alg».proof.Proof.Lanes
import proofs.«415962_j16527034155702_4_alg».proof.Proof.Sums
import proofs.«415962_j16527034155702_4_alg».proof.Proof.RatioRows
import proofs.«415962_j16527034155702_4_alg».proof.Proof.ValueEntropyRows

set_option maxRecDepth 16384

noncomputable section

namespace Cert.KernelIdeal.Terms

open Idealize.ShloMosaic Idealize.ShloMosaic.TcCoe Idealize.ShloMosaic.ValueIdx Idealize.SL.Sem
open Cert.KernelIdeal Cert.KernelIdeal.Gen Cert.Losses

/-! ## The packed row of one block -/

section
variable (A : Args) (t : Fin 64)
variable (x0 x1 x2 x3 x4 : Vec Ideal S4096x64 .f32) (x5 x6 x7 x8 x9 : Vec Ideal S4096 .f32)

/-- The row a grid point adds to the accumulator holds, in lanes 0..4, the five totals of its block. -/
theorem partialOf_lane (h0 : IsBlock2 A.muNew t x0) (h1 : IsBlock2 A.sigmaNew t x1) (h2 : IsBlock2 A.muOld t x2)
    (h3 : IsBlock2 A.sigmaOld t x3) (h4 : IsBlock2 A.action t x4) (h5 : IsBlock1 A.valueNew t x5)
    (h6 : IsBlock1 A.valueOld t x6) (h7 : IsBlock1 A.adv t x7) (h8 : IsBlock1 A.ret t x8) (h9 : IsBlock1 A.weight t x9)
    (l : Fin 128) :
    partialOf x0 x1 x2 x3 x4 x5 x6 x7 x8 x9 (ix2 0 l) = pack (fun k => blockSum (rowQuantity A k) t.val) l := by
  unfold partialOf
  rw [pack_lane]
  refine pack_congr (fun k => ?_) l
  match k with
  | 0 => exact polTot_block A t x0 x1 x2 x3 x4 x7 x9 h0 h1 h2 h3 h4 h7 h9
  | 1 => exact valTot_block A t x5 x6 x8 x9 h5 h6 h8 h9
  | 2 => exact entBlk_block A t x1 x9 h1 h9
  | 3 =>
    show (∑ l' : Fin 128, ∑ s : Fin 32, klVec x0 x1 x2 x3 x4 (ix1 ⟨128 * s.val + l'.val, by omega⟩)) = blockSum (klRow A) t.val
    unfold blockSum
    refine Finset.sum_congr rfl fun l' _ => Finset.sum_congr rfl fun s _ => ?_
    rw [klVec_row A t x0 x1 x2 x3 x4 h0 h1 h2 h3 h4]
    exact (ext_blockRow (klRow A) t ⟨128 * s.val + l'.val, by omega⟩).symm
  | 4 =>
    show (∑ l' : Fin 128, ∑ s : Fin 32, cfVec x0 x1 x2 x3 x4 (ix1 ⟨128 * s.val + l'.val, by omega⟩)) = blockSum (clipFracRow A) t.val
    unfold blockSum
    refine Finset.sum_congr rfl fun l' _ => Finset.sum_congr rfl fun s _ => ?_
    rw [cfVec_row A t x0 x1 x2 x3 x4 h0 h1 h2 h3 h4]
    exact (ext_blockRow (clipFracRow A) t ⟨128 * s.val + l'.val, by omega⟩).symm
end

end Cert.KernelIdeal.Terms

end
-- ==== Proof.Accumulate.lean ====
/-
  The resident output block over the 64 grid points. The first point stores the zero row and adds its block's
  row, so lane k holds the total of block 0; each later point before the last adds its block's row to what the
  point before left, so after point n lane k holds the total of blocks 0 … n added in order; the last point adds
  its block and then replaces lane k by the scaled total. The 64 blocks of 4096 rows tile the batch, and sums
  on the extended reals may be regrouped freely, so the scaled totals are the five losses.
-/
import proofs.«415962_j16527034155702_4_alg».proof.Proof.Pieces
import proofs.«415962_j16527034155702_4_alg».proof.Proof.BlockReads
import proofs.«415962_j16527034155702_4_alg».proof.Proof.BlockTotals

set_option maxRecDepth 16384

noncomputable section

namespace Cert.KernelIdeal.Terms

open Idealize.ShloMosaic Idealize.ShloMosaic.TcCoe Idealize.ShloMosaic.ValueIdx Idealize.SL.Sem
open Cert.KernelIdeal Cert.KernelIdeal.Gen Cert.Losses

/-! ## The accumulator, point by point -/

section
variable (m : (ℓ : Loc nD τ sig) → Buf (Elt Ideal) ℓ)

/-- The five running totals on core `c` after blocks `0 … n`. -/
def totals (c : Dev nD) (n : ℕ) : Fin 5 → EReal := fun k => runSum (rowQuantity (args m c) k) n

/-- The row grid point `t` adds: its block's five totals in lanes 0..4. -/
theorem partial_at (c : Dev nD) (t : Fin cfg0.N) (l : Fin 128) :
    partialOf (iblk m c 0 t) (iblk m c 1 t) (iblk m c 2 t) (iblk m c 3 t) (iblk m c 4 t) (iblk m c 5 t) (iblk m c 6 t) (iblk m c 7 t) (iblk m c 8 t) (iblk m c 9 t) (ix2 0 l)
      = pack (fun k => blockSum (rowQuantity (args m c) k) t.val) l :=
  partialOf_lane (args m c) (pt t) (iblk m c 0 t) (iblk m c 1 t) (iblk m c 2 t) (iblk m c 3 t) (iblk m c 4 t) (iblk m c 5 t) (iblk m c 6 t) (iblk m c 7 t) (iblk m c 8 t) (iblk m c 9 t)
    (blk0_isBlock m c t) (blk1_isBlock m c t) (blk2_isBlock m c t) (blk3_isBlock m c t) (blk4_isBlock m c t) (blk5_isBlock m c t) (blk6_isBlock m c t) (blk7_isBlock m c t) (blk8_isBlock m c t) (blk9_isBlock m c t) l

/-- Before the last point the accumulator's lanes hold the running totals: the first point starts from the zero
    row, every later one adds its block to what the point before left. -/
theorem acc_inv (c : Dev nD) : ∀ (n : ℕ) (hn : n < cfg0.N), n < 63 → ∀ l : Fin 128,
    outsAt0 m c n hn (ix2 0 l) = pack (totals m c n) l := by
  intro n
  induction n with
  | zero =>
    intro hn _ l
    have h : outsAt0 m c 0 hn = _ := outsAt0_A m c ⟨0, hn⟩ (Nat.zero_mod 64) (show ¬((0 : ℕ) % 64 = 63) from by decide)
    rw [h, out0_A_10_eq]
    unfold accumulated
    rw [accumulate_lane, zeros_lane, partial_at m c ⟨0, hn⟩ l, pack_zero_add]
    rfl
  | succ n ih =>
    intro hn h63 l
    have hN : n + 1 < 64 := lt_of_lt_of_eq hn N_0
    have h : outsAt0 m c (n + 1) hn = _ := outsAt0_B m c ⟨n + 1, hn⟩ (by show ¬(n + 1) % 64 = 0; omega) (by show ¬(n + 1) % 64 = 63; omega)
    rw [h, out0_B_10_eq]
    unfold accumulated
    rw [accumulate_lane, partial_at m c ⟨n + 1, hn⟩ l]
    show outsAt0 m c n (Nat.lt_of_succ_lt hn) (ix2 0 l) + pack _ l = _
    rw [ih (Nat.lt_of_succ_lt hn) (by omega) l, pack_add]
    rfl

/-- The last point adds its block and scales: the lanes end at the five losses. -/
theorem last_lane (c : Dev nD) (h63 : 63 < cfg0.N) (l : Fin 128) :
    outsAt0 m c 63 h63 (ix2 0 l) = pack (loss (args m c)) l := by
  have h : outsAt0 m c 63 h63 = _ := outsAt0_C m c ⟨63, h63⟩ (show ¬((63 : ℕ) % 64 = 0) from by decide) (show (63 : ℕ) % 64 = 63 from by decide)
  rw [h, out0_C_10_eq]
  refine (finalize_lane _ (totals m c 63) (fun l' => ?_) l).trans ?_
  · unfold accumulated
    rw [accumulate_lane, partial_at m c ⟨63, h63⟩ l']
    show outsAt0 m c 62 (Nat.lt_of_succ_lt h63) (ix2 0 l') + pack _ l' = _
    rw [acc_inv m c 62 (Nat.lt_of_succ_lt h63) (by decide) l', pack_add]
    rfl
  · refine pack_congr (fun k => ?_) l
    have e : totals m c 63 = fun k => total (rowQuantity (args m c) k) := funext fun k' => runSum_last _
    rw [e]
    exact scaled_total (args m c) k
end

end Cert.KernelIdeal.Terms

end
-- ==== Proof.OutputArray.lean ====
/-
  The 1 x 128 output array after the region. Its window has one block, at the array's origin, which is the whole
  array; the pipeline writes it back at the last grid point only. So the array ends holding what the last point
  left in the block: the five losses in lanes 0..4.
-/
import proofs.«415962_j16527034155702_4_alg».proof.Proof.Accumulate
import Idealize.ShloMosaic.Lib.Pipeline.Value

set_option maxRecDepth 16384

noncomputable section

namespace Cert.KernelIdeal.Terms

open Idealize.ShloMosaic Idealize.ShloMosaic.TcCoe Idealize.ShloMosaic.ValueIdx Idealize.SL.Sem
open Cert.KernelIdeal Cert.KernelIdeal.Gen Cert.Losses

/-! ## The output array after the run -/

section
variable (m : (ℓ : Loc nD τ sig) → Buf (Elt Ideal) ℓ)

/-- The 1 x 128 row of the five losses. -/
def lossRow (c : Dev nD) : Vec Ideal S1x128 .f32 := fun i => pack (loss (args m c)) (i 1)

/-- The output window's one block sits at the array's origin at every point. -/
theorem idx2_10 : ∀ t : Fin cfg0.N, win0_10.index t (0 : Fin 2) = 0 ∧ win0_10.index t (1 : Fin 2) = 0 :=
  (by decide +kernel : ∀ t : Fin grid0.N, _)

/-- Only the last grid point writes the output block back, and that block is the whole array: the array ends at
    the row of the five losses. -/
theorem final10 (c : Dev nD) : (dats m 0 c).arrAt 10 cfg0.N = lossRow m c := by
  refine (dats m 0 c).arrAt_eq_of_cover 10 (lossRow m c) (fun t ht => ?_) (fun i => ?_)
  · have ht63 : t.val % 64 = 63 := (flush0_10 t).mp ht
    obtain ⟨e0, e1⟩ := idx2_10 t
    show (cfg0.win 10).cut (grid0.coords t) ((dats m 0 c).after 10 t) = _
    rw [after0_10]
    funext j
    show outsAt0 m c t.val t.isLt j = lossRow m c (((cfg0.win 10).blk t).view.emb j)
    have hemb : ((cfg0.win 10).blk t).view.emb j = j := by
      funext a; apply Fin.ext
      match a with
      | ⟨0, _⟩ => show win0_10.index t (0 : Fin 2) * 1 + 1 * (j 0).val = (j 0).val; omega
      | ⟨1, _⟩ => show win0_10.index t (1 : Fin 2) * 128 + 1 * (j 1).val = (j 1).val; omega
    rw [hemb]
    obtain ⟨n, hn⟩ := t
    have hN : n < 64 := lt_of_lt_of_eq hn N_0
    obtain rfl : n = 63 := by have : n % 64 = 63 := ht63; omega
    obtain ⟨p, q, rfl⟩ : ∃ (p : Fin 1) (q : Fin 128), j = ix2 p q := ⟨j 0, j 1, eq_ix2 j⟩
    obtain rfl : p = 0 := Subsingleton.elim _ _
    exact last_lane m c hn q
  · have h63 : 63 < cfg0.N := by have hN : cfg0.N = 64 := N_0; omega
    refine ⟨⟨63, h63⟩, (flush0_10 _).mpr (show (63 : ℕ) % 64 = 63 from by decide), ?_⟩
    obtain ⟨e0, e1⟩ := idx2_10 ⟨63, h63⟩
    show i ∈ ((View.whole main_v0).slice (win0_10.rect ⟨63, h63⟩)).set
    rw [View.set_slice_whole, Rect.mem_set_unit]
    intro a
    match a with
    | ⟨0, _⟩ =>
      show win0_10.index ⟨63, h63⟩ (0 : Fin 2) * 1 ≤ (i 0).val ∧ (i 0).val < win0_10.index ⟨63, h63⟩ (0 : Fin 2) * 1 + 1
      have : (i 0).val < 1 := (i 0).isLt
      omega
    | ⟨1, _⟩ =>
      show win0_10.index ⟨63, h63⟩ (1 : Fin 2) * 128 ≤ (i 1).val ∧ (i 1).val < win0_10.index ⟨63, h63⟩ (1 : Fin 2) * 128 + 128
      have : (i 1).val < 128 := (i 1).isLt
      omega
end

end Cert.KernelIdeal.Terms

end
-- ==== Proof.Tail.lean ====
/-
  The lines after the region. The kernel region leaves one 1 x 128 row; the program then cuts lanes 0..4 out of
  it, each as a 1 x 1 slice read as a scalar, and returns those five scalars. So each result is the row's entry
  at its lane, and the ten argument arrays, which no line writes, end as they were launched.
-/
import proofs.«415962_j16527034155702_4_alg».proof.Proof.Gen.KernelIdeal.Frame
import proofs.«415962_j16527034155702_4_alg».proof.Proof.KernelTerms
import Idealize.ShloMosaic.Lib.StableHlo.Run
import Idealize.ShloMosaic.Lib.Pipeline.FrameSuffix
import Idealize.ShloMosaic.Lib.Pipeline.Frame
import Idealize.ShloMosaic.Lib.Pipeline.Value
import Idealize.ShloMosaic.Lib.ValueIdx

noncomputable section

namespace Cert.KernelIdeal.Terms

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (ρ : Dev nD → PrngReg)

/-! ## One lane of the row -/

/-- Lane `k` of a one-row vector, cut out as a 1 x 1 slice and read as a scalar, is the vector's entry (0, k):
    the scalar's one index and the slice's one index are both at row-major position 0, and the slice is the
    row shifted by k along the lanes. -/
theorem lane_read (X : Vec Ideal S1x128 .f32) (k : Fin 128) (hs : S1x128.Slices ![0, k.val] S1x1)
    (hc : S1x1.ShapeCasts S_) (i : S_.Idx) :
    shapeCast S_ (extractStridedSlice S1x1 ![0, k.val] X hs) hc i = X (ix2 0 k) := by
  refine (shapeCast_apply _ hc i (ix2 (0 : Fin 1) (0 : Fin 1)) ?_).trans ?_
  · rw [Shape.rowMajor_val_two]
    show 0 * 1 + 0 = (Shape.rowMajorPi _ i).val
    rw [Shape.rowMajorPi_zero]
  · refine extractStridedSlice_apply _ X hs _ (ix2 (0 : Fin 1) k) fun a => ?_
    match a with
    | ⟨0, _⟩ => rfl
    | ⟨1, _⟩ => rfl

/-! ## The five results -/

/-- The region's output row, as the lines after the region find it. -/
theorem tail_arr (c : Dev nD) (Y : Vec Ideal S1x128 .f32) (hfin : (dats m 0 c).arrAt 10 cfg0.N = Y) :
    Pipeline.withArrays (cfgs 0).spec c (V0 m c) (fun w => (dats m 0 c).arrAt w (cfgs 0).N) (Proc.devRef .tc main_v0) = Y :=
  (Pipeline.withArrays_arr spec0 launch0.win.arr_inj c _ _ 10).trans hfin

theorem tail_v2 (c : Dev nD) (Y : Vec Ideal S1x128 .f32) (hfin : (dats m 0 c).arrAt 10 cfg0.N = Y) :
    Pipeline.afterTail₀ cfgs (dats m) 0 (V0 m) [hostOps1] c main_v2 = fun _ => Y (ix2 0 0) := by
  unfold Pipeline.afterTail₀
  show StableHlo.after hostOps1 _ (Proc.devRef .tc main_v2) = _
  after_results
  funext i
  rw [tail_arr m c Y hfin]
  exact lane_read Y 0 _ _ i

theorem tail_v4 (c : Dev nD) (Y : Vec Ideal S1x128 .f32) (hfin : (dats m 0 c).arrAt 10 cfg0.N = Y) :
    Pipeline.afterTail₀ cfgs (dats m) 0 (V0 m) [hostOps1] c main_v4 = fun _ => Y (ix2 0 1) := by
  unfold Pipeline.afterTail₀
  show StableHlo.after hostOps1 _ (Proc.devRef .tc main_v4) = _
  after_results
  funext i
  rw [tail_arr m c Y hfin]
  exact lane_read Y 1 _ _ i

theorem tail_v6 (c : Dev nD) (Y : Vec Ideal S1x128 .f32) (hfin : (dats m 0 c).arrAt 10 cfg0.N = Y) :
    Pipeline.afterTail₀ cfgs (dats m) 0 (V0 m) [hostOps1] c main_v6 = fun _ => Y (ix2 0 2) := by
  unfold Pipeline.afterTail₀
  show StableHlo.after hostOps1 _ (Proc.devRef .tc main_v6) = _
  after_results
  funext i
  rw [tail_arr m c Y hfin]
  exact lane_read Y 2 _ _ i

theorem tail_v8 (c : Dev nD) (Y : Vec Ideal S1x128 .f32) (hfin : (dats m 0 c).arrAt 10 cfg0.N = Y) :
    Pipeline.afterTail₀ cfgs (dats m) 0 (V0 m) [hostOps1] c main_v8 = fun _ => Y (ix2 0 3) := by
  unfold Pipeline.afterTail₀
  show StableHlo.after hostOps1 _ (Proc.devRef .tc main_v8) = _
  after_results
  funext i
  rw [tail_arr m c Y hfin]
  exact lane_read Y 3 _ _ i

theorem tail_v10 (c : Dev nD) (Y : Vec Ideal S1x128 .f32) (hfin : (dats m 0 c).arrAt 10 cfg0.N = Y) :
    Pipeline.afterTail₀ cfgs (dats m) 0 (V0 m) [hostOps1] c main_v10 = fun _ => Y (ix2 0 4) := by
  unfold Pipeline.afterTail₀
  show StableHlo.after hostOps1 _ (Proc.devRef .tc main_v10) = _
  after_results
  funext i
  rw [tail_arr m c Y hfin]
  exact lane_read Y 4 _ _ i

/-! ## The run -/

/-- Every run of the program ends with the five results at lanes 0..4 of the region's output row and the ten
    arguments as launched. -/
theorem run_tail (Y : Dev nD → Vec Ideal S1x128 .f32) (hfin : ∀ c : Dev nD, (dats m 0 c).arrAt 10 cfg0.N = Y c) :
    θ_run (Cert.KernelIdeal.defs (F := Ideal)) (onTc (τ := τ) (Cert.KernelIdeal.main (F := Ideal))) ⟨m, fun _ => 0, ρ⟩ fun r => ∀ c : Dev nD,
      r.2.mem ((c.tc : Thread nD τ).loc main_v2) = (fun _ => Y c (ValueIdx.ix2 0 0))
      ∧ r.2.mem ((c.tc : Thread nD τ).loc main_v4) = (fun _ => Y c (ValueIdx.ix2 0 1))
      ∧ r.2.mem ((c.tc : Thread nD τ).loc main_v6) = (fun _ => Y c (ValueIdx.ix2 0 2))
      ∧ r.2.mem ((c.tc : Thread nD τ).loc main_v8) = (fun _ => Y c (ValueIdx.ix2 0 3))
      ∧ r.2.mem ((c.tc : Thread nD τ).loc main_v10) = (fun _ => Y c (ValueIdx.ix2 0 4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨
      ((h c).2 main_v2 (Pipeline.mem_restRefs_of main_v2 rfl (by decide))).trans (tail_v2 m c (Y c) (hfin c)),
      ((h c).2 main_v4 (Pipeline.mem_restRefs_of main_v4 rfl (by decide))).trans (tail_v4 m c (Y c) (hfin c)),
      ((h c).2 main_v6 (Pipeline.mem_restRefs_of main_v6 rfl (by decide))).trans (tail_v6 m c (Y c) (hfin c)),
      ((h c).2 main_v8 (Pipeline.mem_restRefs_of main_v8 rfl (by decide))).trans (tail_v8 m c (Y c) (hfin c)),
      ((h c).2 main_v10 (Pipeline.mem_restRefs_of main_v10 rfl (by decide))).trans (tail_v10 m c (Y c) (hfin c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c)))⟩) (run_main m ρ)

end Cert.KernelIdeal.Terms

end
-- ==== Proof.KernelRun.lean ====
/-
  The kernel program's run, read: after the region @main takes lanes 0..4 of the 1 x 128 output array (a slice and a
  reshape each) as its five rank-0 results, and the array holds the five losses in those lanes; so every weakly
  fair execution ends with result k at loss k of the argument arrays, the arguments unchanged.
-/
import proofs.«415962_j16527034155702_4_alg».proof.Proof.OutputArray
import proofs.«415962_j16527034155702_4_alg».proof.Proof.Tail

set_option maxRecDepth 16384

noncomputable section

namespace Cert.KernelIdeal.Terms

open Idealize.ShloMosaic Idealize.ShloMosaic.TcCoe Idealize.ShloMosaic.ValueIdx Idealize.SL.Sem
open Cert.KernelIdeal Cert.KernelIdeal.Gen Cert.Losses

variable (m : (ℓ : Loc nD τ sig) → Buf (Elt Ideal) ℓ) (ρ : Dev nD → PrngReg)

/-- `pack` read at the five literal lanes, for any five numbers. -/
theorem pack_at0 (v : Fin 5 → EReal) : pack v (0 : Fin 128) = v 0 := by
  unfold pack; exact if_pos rfl
theorem pack_at1 (v : Fin 5 → EReal) : pack v (1 : Fin 128) = v 1 := by
  unfold pack; rw [if_neg (show ¬((1 : Fin 128).val = 0) by decide)]; exact if_pos rfl
theorem pack_at2 (v : Fin 5 → EReal) : pack v (2 : Fin 128) = v 2 := by
  unfold pack
  rw [if_neg (show ¬((2 : Fin 128).val = 0) by decide), if_neg (show ¬((2 : Fin 128).val = 1) by decide)]
  exact if_pos rfl
theorem pack_at3 (v : Fin 5 → EReal) : pack v (3 : Fin 128) = v 3 := by
  unfold pack
  rw [if_neg (show ¬((3 : Fin 128).val = 0) by decide), if_neg (show ¬((3 : Fin 128).val = 1) by decide),
    if_neg (show ¬((3 : Fin 128).val = 2) by decide)]
  exact if_pos rfl
theorem pack_at4 (v : Fin 5 → EReal) : pack v (4 : Fin 128) = v 4 := by
  unfold pack
  rw [if_neg (show ¬((4 : Fin 128).val = 0) by decide), if_neg (show ¬((4 : Fin 128).val = 1) by decide),
    if_neg (show ¬((4 : Fin 128).val = 2) by decide), if_neg (show ¬((4 : Fin 128).val = 3) by decide)]
  exact if_pos rfl

/-- The loss row at lane `k` of its one row. -/
theorem lossRow_apply (c : Dev nD) (k : Fin 128) : lossRow m c (ix2 0 k) = pack (loss (args m c)) k := by
  unfold lossRow
  rfl

/-- Every weakly fair execution of the idealized kernel program ends with its five results at the five losses of
    its argument arrays, and the arguments unchanged. -/
theorem run_losses :
    θ_run (Cert.KernelIdeal.defs (F := Ideal)) (onTc (τ := τ) (Cert.KernelIdeal.main (F := Ideal))) ⟨m, fun _ => 0, ρ⟩ fun r => ∀ c : Dev nD,
      r.2.mem ((c.tc : Thread nD τ).loc main_v2) = (fun _ => loss (args m c) 0)
      ∧ r.2.mem ((c.tc : Thread nD τ).loc main_v4) = (fun _ => loss (args m c) 1)
      ∧ r.2.mem ((c.tc : Thread nD τ).loc main_v6) = (fun _ => loss (args m c) 2)
      ∧ r.2.mem ((c.tc : Thread nD τ).loc main_v8) = (fun _ => loss (args m c) 3)
      ∧ r.2.mem ((c.tc : Thread nD τ).loc main_v10) = (fun _ => loss (args m c) 4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun r h c =>
    ⟨(h c).1.trans (funext fun _ => (lossRow_apply m c 0).trans (pack_at0 _)),
      (h c).2.1.trans (funext fun _ => (lossRow_apply m c 1).trans (pack_at1 _)),
      (h c).2.2.1.trans (funext fun _ => (lossRow_apply m c 2).trans (pack_at2 _)),
      (h c).2.2.2.1.trans (funext fun _ => (lossRow_apply m c 3).trans (pack_at3 _)),
      (h c).2.2.2.2.1.trans (funext fun _ => (lossRow_apply m c 4).trans (pack_at4 _)),
      (h c).2.2.2.2.2⟩)
    (run_tail m ρ (lossRow m) (final10 m))

end Cert.KernelIdeal.Terms

end
-- ==== Proof.RefValueA.lean ====
/-
  The reference's two row sums are the specification's Gaussian log-densities.

  Read at a row r, each is the zero word (which denotes 0) plus the sum over the 64 columns j of the summand at
  (r, j); the summand is, operation by operation, (-1/2 · z) · z - log σ - (1/2) log 2π with z = (a - μ)/σ, every
  operation the exact one on the extended reals and every literal the word the specification names.
-/
import proofs.«415962_j16527034155702_4_alg».proof.Proof.Gen.ReferenceIdeal.Run
import proofs.«415962_j16527034155702_4_alg».proof.Proof.Gen.ReferenceIdeal.Read
import proofs.«415962_j16527034155702_4_alg».proof.Proof.Spec
import Idealize.ShloMosaic.Lib.ValueIdxRank1
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Losses

/-- A 262144 x 64 argument array at the ideal values. -/
abbrev A2 : Type := (⟨S262144x64, .f32⟩ : BufTy).Contents (Elt Ideal)
/-- A 262144-vector argument at the ideal values. -/
abbrev A1 : Type := (⟨S262144, .f32⟩ : BufTy).Contents (Elt Ideal)

/-! ## Indices -/

/-- The index a row sum reads its operand at, for row `r` and column `k`, is the pair `(r, k)`. -/
theorem idx_row (r : Fin 262144) (k : Fin 64) : idx_main_v9 (ix1 r) k = ix2 r k := by
  funext a
  match a with
  | ⟨0, _⟩ => rfl
  | ⟨1, _⟩ => rfl

/-! ## The log-densities -/

/-- The reference's first row sum is the log-density under the new parameters. -/
theorem logpNew_row (a0 a1 a4 : A2) (r : Fin 262144) :
    val_main_v9 (F := Ideal) a0 a1 a4 (ix1 r) = logp a4 a0 a1 r := by
  rw [val_main_v9_apply, val_main_cst_1_apply]
  simp only [Ideal.ofBits_def, Ideal.ofBits_zero_f32, zero_add]
  unfold logp
  refine Finset.sum_congr rfl fun k _ => ?_
  rw [idx_row]
  simp only [val_main_v8_apply, val_main_v7_apply, val_main_cst_0_apply, val_main_v6_apply, val_main_v5_apply,
    val_main_v4_apply, val_main_v3_apply, val_main_v2_apply, val_main_cst_apply, val_main_v1_apply, val_main_v0_apply,
    Ideal.ofBits_def, Ideal.subf_def, Ideal.mulf_def, Ideal.hostDivf_def, Ideal.hostUnary_log_def]
  rfl

/-- The same for the second row sum. -/
theorem idx_row' (r : Fin 262144) (k : Fin 64) : idx_main_v19 (ix1 r) k = ix2 r k := by
  funext a
  match a with
  | ⟨0, _⟩ => rfl
  | ⟨1, _⟩ => rfl

/-- The reference's second row sum is the log-density under the old parameters. -/
theorem logpOld_row (a2 a3 a4 : A2) (r : Fin 262144) :
    val_main_v19 (F := Ideal) a2 a3 a4 (ix1 r) = logp a4 a2 a3 r := by
  rw [val_main_v19_apply, val_main_cst_4_apply]
  simp only [Ideal.ofBits_def, Ideal.ofBits_zero_f32, zero_add]
  unfold logp
  refine Finset.sum_congr rfl fun k _ => ?_
  rw [idx_row']
  simp only [val_main_v18_apply, val_main_v17_apply, val_main_cst_3_apply, val_main_v16_apply, val_main_v15_apply,
    val_main_v14_apply, val_main_v13_apply, val_main_v12_apply, val_main_cst_2_apply, val_main_v11_apply,
    val_main_v10_apply, Ideal.ofBits_def, Ideal.subf_def, Ideal.mulf_def, Ideal.hostDivf_def, Ideal.hostUnary_log_def]
  rfl

end Cert.ReferenceIdeal.RefValue

end
-- ==== Proof.RefValueB.lean ====
/-
  The reference's five row quantities, read at a row, are the specification's.
-/
import proofs.«415962_j16527034155702_4_alg».proof.Proof.RefValueA

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Losses

/-! ## The row quantities -/

/-- The ten arguments as the specification's record. -/
abbrev mk (a0 a1 a2 a3 a4 : A2) (a5 a6 a7 a8 a9 : A1) : Args := ⟨a0, a1, a2, a3, a4, a5, a6, a7, a8, a9⟩

/-- The exponential of the difference of the two row sums is the probability ratio. -/
theorem ratio_row (a0 a1 a2 a3 a4 : A2) (a5 a6 a7 a8 a9 : A1) (r : Fin 262144) :
    val_main_v21 (F := Ideal) a0 a1 a2 a3 a4 (ix1 r) = ratio (mk a0 a1 a2 a3 a4 a5 a6 a7 a8 a9) r := by
  rw [val_main_v21_apply, val_main_v20_apply, logpNew_row, logpOld_row]
  rfl

/-- The weighted dual-clipped surrogate. -/
theorem policy_row (a0 a1 a2 a3 a4 : A2) (a5 a6 a7 a8 a9 : A1) (r : Fin 262144) :
    val_main_v29 (F := Ideal) a0 a1 a2 a3 a4 a7 a9 (ix1 r) = policyRow (mk a0 a1 a2 a3 a4 a5 a6 a7 a8 a9) r := by
  rw [val_main_v29_apply, val_main_v28_apply, val_main_v27_apply, val_main_v26_apply, val_main_cst_7_apply,
    val_main_v25_apply, val_main_v24_apply, val_main_v23_apply, val_main_call0_v4_apply, val_main_call0_v3_apply,
    val_main_cst_6_apply, val_main_call0_v2_apply, val_main_call0_v1_apply, val_main_call0_v0_apply,
    val_main_cst_5_apply, val_main_v22_apply, ratio_row a0 a1 a2 a3 a4 a5 a6 a7 a8 a9 r]
  rfl

/-- The weighted larger squared value error. -/
theorem value_row (a0 a1 a2 a3 a4 : A2) (a5 a6 a7 a8 a9 : A1) (r : Fin 262144) :
    val_main_v48 (F := Ideal) a5 a6 a8 a9 (ix1 r) = valueRow (mk a0 a1 a2 a3 a4 a5 a6 a7 a8 a9) r := by
  simp only [val_main_v48_apply, val_main_v47_apply, val_main_v46_apply, val_main_v45_apply, val_main_v44_apply,
    val_main_v43_apply, val_main_v42_apply, val_main_v41_apply, val_main_call1_v4_apply, val_main_call1_v3_apply,
    val_main_cst_15_apply, val_main_call1_v2_apply, val_main_call1_v1_apply, val_main_call1_v0_apply,
    val_main_cst_14_apply, val_main_v40_apply,
    Ideal.ofBits_def, Ideal.mulf_def, Ideal.addf_def, Ideal.subf_def, Ideal.maximumf_def, Ideal.minimumf_def]
  rfl

/-- The same for the third row sum. -/
theorem idx_row'' (r : Fin 262144) (k : Fin 64) : idx_main_v36 (ix1 r) k = ix2 r k := by
  funext a
  match a with
  | ⟨0, _⟩ => rfl
  | ⟨1, _⟩ => rfl

/-- The weighted Gaussian entropy. -/
theorem entropy_row (a0 a1 a2 a3 a4 : A2) (a5 a6 a7 a8 a9 : A1) (r : Fin 262144) :
    val_main_v37 (F := Ideal) a1 a9 (ix1 r) = entropyRow (mk a0 a1 a2 a3 a4 a5 a6 a7 a8 a9) r := by
  rw [val_main_v37_apply, val_main_v36_apply, val_main_cst_11_apply]
  simp only [Ideal.ofBits_def, Ideal.ofBits_zero_f32, zero_add, Ideal.mulf_def]
  unfold entropyRow
  refine congrArg (· * a9 (ix1 r)) (Finset.sum_congr rfl fun k _ => ?_)
  rw [idx_row'']
  simp only [val_main_v35_apply, val_main_v34_apply, val_main_cst_10_apply, val_main_v33_apply,
    Ideal.ofBits_def, Ideal.addf_def, Ideal.hostUnary_log_def]
  rfl

/-- The log-density gap, old minus new. -/
theorem kl_row (a0 a1 a2 a3 a4 : A2) (a5 a6 a7 a8 a9 : A1) (r : Fin 262144) :
    val_main_v52 (F := Ideal) a0 a1 a2 a3 a4 (ix1 r) = klRow (mk a0 a1 a2 a3 a4 a5 a6 a7 a8 a9) r := by
  rw [val_main_v52_apply, logpNew_row, logpOld_row]
  rfl

/-- The indicator that the ratio left the clip band, converted as the reference converts it. -/
theorem clipFrac_row (a0 a1 a2 a3 a4 : A2) (a5 a6 a7 a8 a9 : A1) (r : Fin 262144) :
    val_main_v60 (F := Ideal) a0 a1 a2 a3 a4 (ix1 r) = clipFracRow (mk a0 a1 a2 a3 a4 a5 a6 a7 a8 a9) r := by
  rw [val_main_v60_apply, val_main_v59_apply, val_main_v58_apply, val_main_cst_22_apply, val_main_v57_apply,
    val_main_v56_apply, val_main_v55_apply, val_main_cst_21_apply, ratio_row a0 a1 a2 a3 a4 a5 a6 a7 a8 a9 r]
  rfl

end Cert.ReferenceIdeal.RefValue

end
-- ==== Proof.RefValue.lean ====
/-
  The reference's five results at the specification.

  The reference computes, for every row r of the batch, the two Gaussian log-densities (a sum over the 64
  columns of the row), the probability ratio, and from these the five row quantities; each result is the batch
  total of one row quantity divided by the batch size (the first negated, the second halved). The total is the
  zero word, which denotes 0, plus the sum over all indices of a 262144-vector, which is the sum over the rows.
  So each result buffer, a vector with a single index, holds the specification's loss.
-/
import proofs.«415962_j16527034155702_4_alg».proof.Proof.RefValueB

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Losses

/-! ## The batch totals -/

/-- A sum over the indices of a 262144-vector is the sum over the rows. -/
theorem sum_rows (g : A1) : ∑ j : S262144.Idx, g j = ∑ r : Fin 262144, g (ix1 r) :=
  (Equiv.sum_comp (idxEquiv1 (n := 262144)).symm g).symm

/-! ## The five results -/

/-- The policy loss. -/
theorem policy_result (a0 a1 a2 a3 a4 : A2) (a5 a6 a7 a8 a9 : A1) :
    val_main_v32 (F := Ideal) a0 a1 a2 a3 a4 a7 a9 = fun _ => policyLoss (mk a0 a1 a2 a3 a4 a5 a6 a7 a8 a9) := by
  funext i
  rw [val_main_v32_apply, val_main_v31_apply, val_main_v30_apply, val_main_cst_8_apply, val_main_cst_9_apply, sum_rows]
  simp only [Ideal.ofBits_def, Ideal.ofBits_zero_f32, zero_add, Ideal.hostNegf_def, Ideal.negf_def, Ideal.hostDivf_def,
    policy_row a0 a1 a2 a3 a4 a5 a6 a7 a8 a9]
  rfl

/-- The value loss. -/
theorem value_result (a0 a1 a2 a3 a4 : A2) (a5 a6 a7 a8 a9 : A1) :
    val_main_v51 (F := Ideal) a5 a6 a8 a9 = fun _ => valueLoss (mk a0 a1 a2 a3 a4 a5 a6 a7 a8 a9) := by
  funext i
  rw [val_main_v51_apply, val_main_cst_18_apply, val_main_v50_apply, val_main_v49_apply, val_main_cst_16_apply,
    val_main_cst_17_apply, sum_rows]
  simp only [Ideal.ofBits_def, Ideal.ofBits_zero_f32, zero_add, Ideal.mulf_def, Ideal.hostDivf_def,
    value_row a0 a1 a2 a3 a4 a5 a6 a7 a8 a9]
  rfl

/-- The entropy loss. -/
theorem entropy_result (a0 a1 a2 a3 a4 : A2) (a5 a6 a7 a8 a9 : A1) :
    val_main_v39 (F := Ideal) a1 a9 = fun _ => entropyLoss (mk a0 a1 a2 a3 a4 a5 a6 a7 a8 a9) := by
  funext i
  rw [val_main_v39_apply, val_main_v38_apply, val_main_cst_12_apply, val_main_cst_13_apply, sum_rows]
  simp only [Ideal.ofBits_def, Ideal.ofBits_zero_f32, zero_add, Ideal.hostDivf_def,
    entropy_row a0 a1 a2 a3 a4 a5 a6 a7 a8 a9]
  rfl

/-- The approximate divergence. -/
theorem kl_result (a0 a1 a2 a3 a4 : A2) (a5 a6 a7 a8 a9 : A1) :
    val_main_v54 (F := Ideal) a0 a1 a2 a3 a4 = fun _ => approxKl (mk a0 a1 a2 a3 a4 a5 a6 a7 a8 a9) := by
  funext i
  rw [val_main_v54_apply, val_main_v53_apply, val_main_cst_19_apply, val_main_cst_20_apply, sum_rows]
  simp only [Ideal.ofBits_def, Ideal.ofBits_zero_f32, zero_add, Ideal.hostDivf_def,
    kl_row a0 a1 a2 a3 a4 a5 a6 a7 a8 a9]
  rfl

/-- The clipped fraction. -/
theorem clipFrac_result (a0 a1 a2 a3 a4 : A2) (a5 a6 a7 a8 a9 : A1) :
    val_main_v62 (F := Ideal) a0 a1 a2 a3 a4 = fun _ => clipFrac (mk a0 a1 a2 a3 a4 a5 a6 a7 a8 a9) := by
  funext i
  rw [val_main_v62_apply, val_main_v61_apply, val_main_cst_23_apply, val_main_cst_24_apply, sum_rows]
  simp only [Ideal.ofBits_def, Ideal.ofBits_zero_f32, zero_add, Ideal.hostDivf_def,
    clipFrac_row a0 a1 a2 a3 a4 a5 a6 a7 a8 a9]
  rfl

/-! ## The run -/

/-- The ten argument arrays of a device's launch memory, as the specification's record. -/
def args (m : (ℓ : Loc nD τ sig) → Buf (Elt Ideal) ℓ) (c : Dev nD) : Cert.Losses.Args :=
  ⟨m ((c.tc : Thread nD τ).loc main_arg0), m ((c.tc : Thread nD τ).loc main_arg1),
   m ((c.tc : Thread nD τ).loc main_arg2), m ((c.tc : Thread nD τ).loc main_arg3),
   m ((c.tc : Thread nD τ).loc main_arg4), m ((c.tc : Thread nD τ).loc main_arg5),
   m ((c.tc : Thread nD τ).loc main_arg6), m ((c.tc : Thread nD τ).loc main_arg7),
   m ((c.tc : Thread nD τ).loc main_arg8), m ((c.tc : Thread nD τ).loc main_arg9)⟩

/-- On every device, from any memory with zero counters, every weakly fair execution of the reference terminates
    with its five results at the specification's losses of the launch arguments, and the arguments unchanged. -/
theorem run_losses (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      fun r => ∀ c : Dev nD,
      r.2.mem ((c.tc : Thread nD τ).loc main_v32) = (fun _ => Cert.Losses.policyLoss (args m c))
      ∧ r.2.mem ((c.tc : Thread nD τ).loc main_v51) = (fun _ => Cert.Losses.valueLoss (args m c))
      ∧ r.2.mem ((c.tc : Thread nD τ).loc main_v39) = (fun _ => Cert.Losses.entropyLoss (args m c))
      ∧ r.2.mem ((c.tc : Thread nD τ).loc main_v54) = (fun _ => Cert.Losses.approxKl (args m c))
      ∧ r.2.mem ((c.tc : Thread nD τ).loc main_v62) = (fun _ => Cert.Losses.clipFrac (args m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun _ h c =>
    ⟨(h c).1.trans (policy_result _ _ _ _ _ _ _ _ _ _),
     (h c).2.1.trans (value_result _ _ _ _ _ _ _ _ _ _),
     (h c).2.2.1.trans (entropy_result _ _ _ _ _ _ _ _ _ _),
     (h c).2.2.2.1.trans (kl_result _ _ _ _ _ _ _ _ _ _),
     (h c).2.2.2.2.1.trans (clipFrac_result _ _ _ _ _ _ _ _ _ _),
     (h c).2.2.2.2.2⟩)
    (Cert.ReferenceIdeal.Value.run (F := Ideal) m ρ)

end Cert.ReferenceIdeal.RefValue

end
-- ==== Proof.LossLanes.lean ====
/-
  The five losses by lane number: lane 0 carries the policy loss, lane 1 the value loss, lane 2 the entropy
  loss, lane 3 the approximate KL divergence, lane 4 the clip fraction.
-/
import proofs.«415962_j16527034155702_4_alg».proof.Proof.Blocks

noncomputable section

namespace Cert.Losses

theorem loss_zero (x : Args) : loss x 0 = policyLoss x := by unfold loss; rfl
theorem loss_one (x : Args) : loss x 1 = valueLoss x := by unfold loss; rfl
theorem loss_two (x : Args) : loss x 2 = entropyLoss x := by unfold loss; rfl
theorem loss_three (x : Args) : loss x 3 = approxKl x := by unfold loss; rfl
theorem loss_four (x : Args) : loss x 4 = clipFrac x := by unfold loss; rfl

end Cert.Losses

end
-- ==== Proof.lean ====
/-
  The certificate of a fused PPO loss kernel against its jnp reference, over the extended reals.

  The kernel walks the batch of 262144 rows in 64 blocks of 4096. From each block it forms five row quantities
  (the weighted dual-clipped surrogate, the weighted clipped value error, the weighted Gaussian entropy, the
  log-density gap, the clip indicator), totals each over the block (sublanes, then lanes), packs the five totals
  into lanes 0..4 of a 128-lane row by one-hot masks and adds that row to a resident accumulator; the last block's
  epilogue picks the five totals out of the accumulator by the same masks, scales them (−·/B, ½·/B, ·/B, ·/B, ·/B)
  and packs them again; @main returns the five lanes. The reference computes the same five row quantities on the
  whole arrays and takes means.

  The two agree at the exact instance because (i) the row quantities are the same expressions of the same rows,
  literal for literal; (ii) a mask entry is 0 or 1 and 0·x = 0, 1·x = x, x + 0 = x for every extended real, so
  packing and unpacking lose nothing; (iii) addition of extended reals is commutative and associative, and the
  blocks tile the batch, so the block-by-block totals are the batch totals; (iv) division by the batch size is
  multiplication by its reciprocal, which commutes with negation and with the factor ½. No finiteness of the
  inputs is used. The ideal pass rewrote nothing, so the idealization claim is trivial; the three frames are the
  generated ones (the reference's is its generated run with the results dropped).
-/
import proofs.«415962_j16527034155702_4_alg».proof.Defs
import proofs.«415962_j16527034155702_4_alg».proof.Proof.Gen.Kernel
import proofs.«415962_j16527034155702_4_alg».proof.Proof.Gen.Kernel.Skeleton
import proofs.«415962_j16527034155702_4_alg».proof.Proof.Gen.Kernel.Launch
import proofs.«415962_j16527034155702_4_alg».proof.Proof.Gen.Kernel.Points
import proofs.«415962_j16527034155702_4_alg».proof.Proof.Gen.Kernel.Frame
import proofs.«415962_j16527034155702_4_alg».proof.Proof.Gen.KernelIdeal
import proofs.«415962_j16527034155702_4_alg».proof.Proof.Gen.KernelIdeal.Skeleton
import proofs.«415962_j16527034155702_4_alg».proof.Proof.Gen.KernelIdeal.Launch
import proofs.«415962_j16527034155702_4_alg».proof.Proof.Gen.KernelIdeal.Points
import proofs.«415962_j16527034155702_4_alg».proof.Proof.Gen.KernelIdeal.Frame
import proofs.«415962_j16527034155702_4_alg».proof.Proof.Gen.ReferenceIdeal
import proofs.«415962_j16527034155702_4_alg».proof.Proof.Gen.Pre_finite_inputs
import proofs.«415962_j16527034155702_4_alg».proof.Proof.Gen.ReferenceIdeal.Run
import proofs.«415962_j16527034155702_4_alg».proof.Proof.Gen.ReferenceIdeal.Read
import Idealize.ShloMosaic.Adequacy
import Idealize.ShloMosaic.Init
import proofs.«415962_j16527034155702_4_alg».proof.Proof.KernelRun
import proofs.«415962_j16527034155702_4_alg».proof.Proof.RefValue
import proofs.«415962_j16527034155702_4_alg».proof.Proof.LossLanes

noncomputable section

namespace Cert.Proof

open Idealize.ShloMosaic Idealize.SL.Sem

/-- The reference's frame: its run, the five results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2.2)
    (Cert.ReferenceIdeal.Value.run (F := Ideal) m ρ)

/-- Both idealized programs end with result k at loss k of their argument arrays; the arrays agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c _ => Cert.Losses.loss (Cert.KernelIdeal.Terms.args m c) 0,
    fun c _ => Cert.Losses.loss (Cert.KernelIdeal.Terms.args m c) 1,
    fun c _ => Cert.Losses.loss (Cert.KernelIdeal.Terms.args m c) 2,
    fun c _ => Cert.Losses.loss (Cert.KernelIdeal.Terms.args m c) 3,
    fun c _ => Cert.Losses.loss (Cert.KernelIdeal.Terms.args m c) 4,
    Cert.KernelIdeal.Terms.run_losses m ρ, ?_⟩
  refine (θ_run Cert.ReferenceIdeal.defs _ _).mono (fun r h c => ?_) (Cert.ReferenceIdeal.RefValue.run_losses m' ρ')
  have e : Cert.ReferenceIdeal.RefValue.args m' c = Cert.KernelIdeal.Terms.args m c := by
    obtain ⟨a0, a1, a2, a3, a4, a5, a6, a7, a8, a9⟩ := hagree c
    unfold Cert.ReferenceIdeal.RefValue.args Cert.KernelIdeal.Terms.args
    rw [a0, a1, a2, a3, a4, a5, a6, a7, a8, a9]
  exact ⟨(h c).1.trans (funext fun _ => (congrArg Cert.Losses.policyLoss e).trans (Cert.Losses.loss_zero _).symm),
    (h c).2.1.trans (funext fun _ => (congrArg Cert.Losses.valueLoss e).trans (Cert.Losses.loss_one _).symm),
    (h c).2.2.1.trans (funext fun _ => (congrArg Cert.Losses.entropyLoss e).trans (Cert.Losses.loss_two _).symm),
    (h c).2.2.2.1.trans (funext fun _ => (congrArg Cert.Losses.approxKl e).trans (Cert.Losses.loss_three _).symm),
    (h c).2.2.2.2.1.trans (funext fun _ => (congrArg Cert.Losses.clipFrac e).trans (Cert.Losses.loss_four _).symm),
    (h c).2.2.2.2.2⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
